-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 8192, 256]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 8192, 256]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x512x256 : Shape := ⟨3, ![4, 512, 256]⟩
abbrev S4x256 : Shape := ⟨2, ![4, 256]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S4x512x256 .f32) (main_arg1 : FVec F S4x256 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Pre_finite_inputs_ReferenceIdeal.lean ====
abbrev S4x8192x256 : Shape := ⟨3, ![4, 8192, 256]⟩
abbrev S4x256 : Shape := ⟨2, ![4, 256]⟩
abbrev S_ : Shape := ⟨0, ![]⟩

class Facts : Prop where
  bcast_S_S4x8192x256 : S_.BroadcastsInDim S4x8192x256 (![] : Fin 0 → Fin S4x8192x256.rank)
  reducesTo_S4x8192x256_S_d0_1_2 : S4x8192x256.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S4x8192x256 .f32) (main_arg1 : FVec F S4x256 .f32) : IVec S_ 1 :=
  let main_v0 : FVec F S4x8192x256 .f32 := Host.absf main_arg0
  let main_cst : FVec F S_ .f32 := constant S_ .f32 0x7F800000#32
  let main_v1 : FVec F S4x8192x256 .f32 := broadcastInDim S4x8192x256 ![] bcast_S_S4x8192x256 main_cst
  let main_v2 : IVec S4x8192x256 1 := cmpf .olt main_v0 main_v1
  let main_c : IVec S_ 1 := constantI S_ 1 1#1
  let main_v3 : IVec S_ 1 := (fun x v => Host.reduce IntOp.andi x v reducesTo_S4x8192x256_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Kernel.lean ====
abbrev S4x512x256 : Shape := ⟨3, ![4, 512, 256]⟩
abbrev S4x256 : Shape := ⟨2, ![4, 256]⟩
abbrev S4x3x256 : Shape := ⟨3, ![4, 3, 256]⟩
abbrev S_ : Shape := ⟨0, ![]⟩
abbrev S4x128x256 : Shape := ⟨3, ![4, 128, 256]⟩
abbrev S1x256 : Shape := ⟨2, ![1, 256]⟩
abbrev S256 : Shape := ⟨1, ![256]⟩
abbrev S1x1x256 : Shape := ⟨3, ![1, 1, 256]⟩
abbrev S4x381x256 : Shape := ⟨3, ![4, 381, 256]⟩
abbrev S4x6x256 : Shape := ⟨3, ![4, 6, 256]⟩

abbrev nBuf : Space → Nat
  | .hbm => 3
  | .vmem => 4
  | .smem => 0
  | _ => 0

abbrev bufTy : (tb : Table) → Fin (tcTables nBuf tb) → BufTy
  | .hbm, ⟨0, _⟩ => ⟨S4x512x256, .f32⟩
  | .hbm, ⟨1, _⟩ => ⟨S4x256, .f32⟩
  | .hbm, ⟨2, _⟩ => ⟨S4x512x256, .f32⟩
  | .local _ .vmem, ⟨0, _⟩ => ⟨S4x512x256, .f32⟩
  | .local _ .vmem, ⟨1, _⟩ => ⟨S4x256, .f32⟩
  | .local _ .vmem, ⟨2, _⟩ => ⟨S4x512x256, .f32⟩
  | .local _ .vmem, ⟨3, _⟩ => ⟨S4x3x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v9 : BitVec 1 := Scalar.cmpi .sgt v2 c0_i32
  let v10 : BitVec 32 := Scalar.extui v9
  let c0_i32_5 : BitVec 32 := 0#32
  let v11 : BitVec 1 := Scalar.cmpi .ne v10 c0_i32_5
  v11

def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_27 : BitVec 32 := 1#32
  let v127 : BitVec 32 := Scalar.muli v5 c1_i32_27
  let v128 : BitVec 32 := Scalar.addi c0_i32_28 v127
  v128.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .slt v2 c15_i32
  let v50 : BitVec 32 := Scalar.extui v49
  let c0_i32_12 : BitVec 32 := 0#32
  let v51 : BitVec 1 := Scalar.cmpi .ne v50 c0_i32_12
  v51

def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_27 : BitVec 32 := 1#32
  let v127 : BitVec 32 := Scalar.muli v7 c1_i32_27
  let v128 : BitVec 32 := Scalar.addi c0_i32_28 v127
  v128.toNat
abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  bitsLt_bf16_f32 : FTy.bits .bf16 < FTy.bits .f32
  inb_S4x256_S4x256_0_0 : ∀ a, (![0, 0] : Fin 2 → Nat) a + S4x256.size a ≤ S4x256.size a
  h_S4x256 : 0 < S4x256.numel
  shapeCasts_S4x256_S4x256 : S4x256.ShapeCasts S4x256
  slices_S4x512x256_o0_0_0_S4x128x256 : S4x512x256.Slices ![0, 0, 0] S4x128x256
  slices_S4x256_o0_0_S1x256 : S4x256.Slices ![0, 0] S1x256
  shapeCasts_S1x256_S256 : S1x256.ShapeCasts S256
  shapeCasts_S256_S1x1x256 : S256.ShapeCasts S1x1x256
  broadcasts_S1x1x256_S4x128x256 : S1x1x256.Broadcasts S4x128x256
  slices_S4x512x256_o0_1_0_S4x128x256 : S4x512x256.Slices ![0, 1, 0] S4x128x256
  slices_S4x256_o1_0_S1x256 : S4x256.Slices ![1, 0] S1x256
  slices_S4x512x256_o0_2_0_S4x128x256 : S4x512x256.Slices ![0, 2, 0] S4x128x256
  slices_S4x256_o2_0_S1x256 : S4x256.Slices ![2, 0] S1x256
  slices_S4x512x256_o0_3_0_S4x128x256 : S4x512x256.Slices ![0, 3, 0] S4x128x256
  slices_S4x256_o3_0_S1x256 : S4x256.Slices ![3, 0] S1x256
  inb_S4x512x256_S4x128x256_0_3_0 : ∀ a, (![0, 3, 0] : Fin 3 → Nat) a + S4x128x256.size a ≤ S4x512x256.size a
  h_S4x128x256 : 0 < S4x128x256.numel
  inb_S4x512x256_S4x3x256_0_509_0 : ∀ a, (![0, 509, 0] : Fin 3 → Nat) a + S4x3x256.size a ≤ S4x512x256.size a
  slices_S4x512x256_o0_128_0_S4x381x256 : S4x512x256.Slices ![0, 128, 0] S4x381x256
  broadcasts_S1x1x256_S4x381x256 : S1x1x256.Broadcasts S4x381x256
  slices_S4x512x256_o0_129_0_S4x381x256 : S4x512x256.Slices ![0, 129, 0] S4x381x256
  slices_S4x512x256_o0_130_0_S4x381x256 : S4x512x256.Slices ![0, 130, 0] S4x381x256
  slices_S4x512x256_o0_131_0_S4x381x256 : S4x512x256.Slices ![0, 131, 0] S4x381x256
  inb_S4x512x256_S4x381x256_0_131_0 : ∀ a, (![0, 131, 0] : Fin 3 → Nat) a + S4x381x256.size a ≤ S4x512x256.size a
  h_S4x381x256 : 0 < S4x381x256.numel
  inb_S4x3x256_S4x3x256_0_0_0 : ∀ a, (![0, 0, 0] : Fin 3 → Nat) a + S4x3x256.size a ≤ S4x3x256.size a
  h_S4x3x256 : 0 < S4x3x256.numel
  slices_S4x512x256_o0_0_0_S4x3x256 : S4x512x256.Slices ![0, 0, 0] S4x3x256
  concatenates_S4x3x256_S4x3x256_S4x6x256_d1 : Shape.Concatenates [S4x3x256, S4x3x256] S4x6x256 1
  slices_S4x6x256_o0_0_0_S4x3x256 : S4x6x256.Slices ![0, 0, 0] S4x3x256
  broadcasts_S1x1x256_S4x3x256 : S1x1x256.Broadcasts S4x3x256
  slices_S4x6x256_o0_1_0_S4x3x256 : S4x6x256.Slices ![0, 1, 0] S4x3x256
  slices_S4x6x256_o0_2_0_S4x3x256 : S4x6x256.Slices ![0, 2, 0] S4x3x256
  slices_S4x6x256_o0_3_0_S4x3x256 : S4x6x256.Slices ![0, 3, 0] S4x3x256
  inb_S4x512x256_S4x3x256_0_0_0 : ∀ a, (![0, 0, 0] : Fin 3 → Nat) a + S4x3x256.size a ≤ S4x512x256.size a
  hcc0_scratch1 : 3 + S_.numel ≤ 5
  hcc0_scratch2 : 4 + S_.numel ≤ 5
  k0_dev1_lt : ∀ d0 : Dev nD, ∀ (k0_h1 : k0_cond1 d0 = 1#1), (k0_dev1 d0) < nD
  k0_dev2_lt : ∀ d0 : Dev nD, ∀ (k0_h2 : k0_cond2 d0 = 1#1), (k0_dev2 d0) < nD
  hstage0_0 : ∀ j, (stage0_0 j).IsWhole
  hstage0_1 : ∀ j, (stage0_1 j).IsWhole
  hstage0_2 : ∀ j, (stage0_2 j).IsWhole

variable [Facts₀]

abbrev cc0_scratch1 : DmaSems sig S_ := SemArray.consecutive 3 S_ hcc0_scratch1
abbrev cc0_scratch2 : DmaSems sig S_ := SemArray.consecutive 4 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x256 : Shape := ⟨3, ![4, 8192, 256]⟩
abbrev S4x256 : Shape := ⟨2, ![4, 256]⟩
abbrev S_ : Shape := ⟨0, ![]⟩
abbrev S4x3x256 : Shape := ⟨3, ![4, 3, 256]⟩
abbrev S4x8195x256 : Shape := ⟨3, ![4, 8195, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x256, .f32⟩
  | .hbm, ⟨1, _⟩ => ⟨S4x256, .f32⟩
  | .hbm, ⟨2, _⟩ => ⟨S_, .f32⟩
  | .hbm, ⟨3, _⟩ => ⟨S4x3x256, .f32⟩
  | .hbm, ⟨4, _⟩ => ⟨S4x8195x256, .f32⟩
  | .hbm, ⟨5, _⟩ => ⟨S_, .f32⟩
  | .hbm, ⟨6, _⟩ => ⟨S4x8192x256, .f32⟩
  | .hbm, ⟨7, _⟩ => ⟨S4x8192x256, .f32⟩
  | .hbm, ⟨8, _⟩ => ⟨S1x256, .f32⟩
  | .hbm, ⟨9, _⟩ => ⟨S256, .f32⟩
  | .hbm, ⟨10, _⟩ => ⟨S1x1x256, .f32⟩
  | .hbm, ⟨11, _⟩ => ⟨S4x8192x256, .f32⟩
  | .hbm, ⟨12, _⟩ => ⟨S4x8192x256, .f32⟩
  | .hbm, ⟨13, _⟩ => ⟨S4x8192x256, .f32⟩
  | .hbm, ⟨14, _⟩ => ⟨S4x8192x256, .f32⟩
  | .hbm, ⟨15, _⟩ => ⟨S1x256, .f32⟩
  | .hbm, ⟨16, _⟩ => ⟨S256, .f32⟩
  | .hbm, ⟨17, _⟩ => ⟨S1x1x256, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S1x256, .f32⟩
  | .hbm, ⟨23, _⟩ => ⟨S256, .f32⟩
  | .hbm, ⟨24, _⟩ => ⟨S1x1x256, .f32⟩
  | .hbm, ⟨25, _⟩ => ⟨S4x8192x256, .f32⟩
  | .hbm, ⟨26, _⟩ => ⟨S4x8192x256, .f32⟩
  | .hbm, ⟨27, _⟩ => ⟨S4x8192x256, .f32⟩
  | .hbm, ⟨28, _⟩ => ⟨S4x8192x256, .f32⟩
  | .hbm, ⟨29, _⟩ => ⟨S1x256, .f32⟩
  | .hbm, ⟨30, _⟩ => ⟨S256, .f32⟩
  | .hbm, ⟨31, _⟩ => ⟨S1x1x256, .f32⟩
  | .hbm, ⟨32, _⟩ => ⟨S4x8192x256, .f32⟩
  | .hbm, ⟨33, _⟩ => ⟨S4x8192x256, .f32⟩
  | .hbm, ⟨34, _⟩ => ⟨S4x8192x256, .f32⟩
  | .hbm, ⟨35, _⟩ => ⟨S4x8192x256, .f32⟩
  | .hbm, ⟨36, _⟩ => ⟨S4x8192x256, .f32⟩
  | .hbm, ⟨37, _⟩ => ⟨S_, .f32⟩
  | .hbm, ⟨38, _⟩ => ⟨S4x8192x256, .f32⟩
  | .hbm, ⟨39, _⟩ => ⟨S4x8192x256, .f32⟩
  | .hbm, ⟨40, _⟩ => ⟨S4x8192x256, .f32⟩
  | _, _ => ⟨S4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]

class Facts₀ : Prop where
  bcast_S_S4x3x256 : S_.BroadcastsInDim S4x3x256 (![] : Fin 0 → Fin S4x3x256.rank)
  concatenates_S4x3x256_S4x8192x256_S4x8195x256_d1 : Shape.Concatenates [S4x3x256, S4x8192x256] S4x8195x256 1
  bcast_S_S4x8192x256 : S_.BroadcastsInDim S4x8192x256 (![] : Fin 0 → Fin S4x8192x256.rank)
  slices_S4x8195x256_S4x8192x256_0_0_0 : S4x8195x256.Slices ![0, 0, 0] S4x8192x256
  slices_S4x256_S1x256_0_0 : S4x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S4x8192x256_0_1_2 : S1x1x256.BroadcastsInDim S4x8192x256 (![0, 1, 2] : Fin 3 → Fin S4x8192x256.rank)
  slices_S4x8195x256_S4x8192x256_0_1_0 : S4x8195x256.Slices ![0, 1, 0] S4x8192x256
  slices_S4x256_S1x256_1_0 : S4x256.Slices ![1, 0] S1x256
  slices_S4x8195x256_S4x8192x256_0_2_0 : S4x8195x256.Slices ![0, 2, 0] S4x8192x256
  slices_S4x256_S1x256_2_0 : S4x256.Slices ![2, 0] S1x256
  slices_S4x8195x256_S4x8192x256_0_3_0 : S4x8195x256.Slices ![0, 3, 0] S4x8192x256
  slices_S4x256_S1x256_3_0 : S4x256.Slices ![3, 0] S1x256

variable [Facts₀]

class Facts : Prop extends Facts₀ where

variable [Facts]
-- ==== Proof.ConvSpec.lean ====
/-
  The mathematics both programs compute, stated once over the extended reals with no program in sight.

  A causal depthwise convolution of four taps along the sequence axis, followed by the activation
  `a ↦ a · logistic a`. Over the whole array `X : [4, 8192, 256]` the row `R` of the result reads the padded rows
  `R, R+1, R+2, R+3` (three zero rows in front of `X`). A device that holds rows `[512c, 512c + 512)` computes its
  512 rows from its own block and the last three rows of the block to its left (the halo); the device at the left
  end takes zeros for the halo. `Kout_block` says the per-device function of the blocks is the block of the whole
  function.
-/
import Idealize.ShloMosaic.PureOps.Ideal
import Idealize.ShloMosaic.Lib.ValueIdx
import Idealize.ShloMosaic.Lib.Layout

noncomputable section

namespace Cert.GConv

open Idealize.ShloMosaic Idealize.ShloMosaic.ValueIdx Idealize.ShloMosaic.Layout

/-- The whole array, one device's block of it, the taps, the halo rows. -/
abbrev SX : Shape := ⟨3, ![4, 8192, 256]⟩
abbrev SB : Shape := ⟨3, ![4, 512, 256]⟩
abbrev SK : Shape := ⟨2, ![4, 256]⟩
abbrev SH : Shape := ⟨3, ![4, 3, 256]⟩

/-- The activation: `a · logistic a`. -/
def act (a : EReal) : EReal := a * Ideal.logistic a

/-- `1 + e^(-a)` is never zero on the extended reals: it is at least one. -/
theorem one_add_exp_neg_ne_zero (a : EReal) : (1 : EReal) + Ideal.exp (-a) ≠ 0 := by
  induction a using EReal.rec with
  | bot =>
    rw [EReal.neg_bot, Ideal.exp_top, EReal.add_top_of_ne_bot (show (1 : EReal) ≠ ⊥ from EReal.coe_ne_bot 1)]
    exact EReal.top_ne_zero
  | top => rw [EReal.neg_top, Ideal.exp_bot, add_zero]; exact one_ne_zero
  | coe r =>
    rw [← EReal.coe_neg]
    show (1 : EReal) + ((Real.exp (-r) : ℝ) : EReal) ≠ 0
    rw [← EReal.coe_one, ← EReal.coe_add]
    have : (0 : ℝ) < 1 + Real.exp (-r) := by positivity
    exact_mod_cast this.ne'

/-- The activation as the quotient `a / (1 + e^(-a))`: the divisor is never zero, so both sides are
    `a · (1 + e^(-a))⁻¹` — at the infinities too. -/
theorem act_eq_div (a : EReal) : act a = Ideal.div a (1 + Ideal.exp (-a)) := by
  unfold act Ideal.logistic Ideal.div
  rw [if_neg (one_add_exp_neg_ne_zero a), if_neg (one_add_exp_neg_ne_zero a), one_mul]

/-- Four products summed from the left. -/
def taps (p w : Fin 4 → EReal) : EReal := p 0 * w 0 + p 1 * w 1 + p 2 * w 2 + p 3 * w 3

/-- Row `J` of the whole array with three zero rows put in front. -/
def padAt (X : SX.Idx → EReal) (b : Fin 4) (ch : Fin 256) (J : ℕ) : EReal :=
  if h : 3 ≤ J ∧ J - 3 < 8192 then X (ix3 b ⟨J - 3, h.2⟩ ch) else 0

/-- The whole result: at `(b, R, ch)` the activation of the four taps over padded rows `R … R+3`. -/
def Gref (X : SX.Idx → EReal) (K : SK.Idx → EReal) : SX.Idx → EReal := fun i =>
  act (taps (fun t => padAt X (i 0) (i 2) ((i 1).val + t.val)) (fun t => K (ix2 t (i 2))))

/-- Row `J` of a device's halo (three rows; zeros when `z`) followed by its own block. -/
def hxAt (x : SB.Idx → EReal) (h : SH.Idx → EReal) (z : Bool) (b : Fin 4) (ch : Fin 256) (J : ℕ) : EReal :=
  if h3 : J < 3 then (if z then 0 else h (ix3 b ⟨J, h3⟩ ch))
  else if h' : J - 3 < 512 then x (ix3 b ⟨J - 3, h'⟩ ch) else 0

/-- One device's result: at `(b, j, ch)` the activation of the four taps over rows `j … j+3` of halo-then-block. -/
def Kout (x : SB.Idx → EReal) (k : SK.Idx → EReal) (h : SH.Idx → EReal) (z : Bool) : SB.Idx → EReal := fun i =>
  act (taps (fun t => hxAt x h z (i 0) (i 2) ((i 1).val + t.val)) (fun t => k (ix2 t (i 2))))

/-- The last three rows of a block: what a device hands to the device on its right. -/
def hal (xl : SB.Idx → EReal) : SH.Idx → EReal := fun y => xl (ix3 (y 0) ⟨509 + (y 1).val, by have := (y 1).isLt; simp at this; omega⟩ (y 2))

/-- The device to the left on the line of sixteen (wrapping at the left end, where it is never read). -/
def lft (c : Fin 16) : Fin 16 := ⟨(c.val + 15) % 16, Nat.mod_lt _ (by decide)⟩

/-- Where a block's index lands in the whole array: row `j` of block `c` is row `512c + j`, the other two
    coordinates unchanged. -/
theorem idx_eq (hT : Tiles SB SX 1 16) (c : Fin 16) (b : Fin 4) (j : Fin 512) (ch : Fin 256) :
    hT.idx c (ix3 b j ch) = ix3 b ⟨c.val * 512 + j.val, by omega⟩ ch := by
  funext a
  match a with
  | ⟨0, _⟩ => exact Fin.ext rfl
  | ⟨1, _⟩ => exact Fin.ext rfl
  | ⟨2, _⟩ => exact Fin.ext rfl

/-- Away from the left end the device to the left is the one numbered one less. -/
theorem lft_val (c : Fin 16) (hc : 0 < c.val) : (lft c).val = c.val - 1 := by
  show (c.val + 15) % 16 = c.val - 1
  omega

/-- Row `J` of halo-then-block of device `c` is the padded row `512c + J` of the whole array, for the
    `515` rows a device reads: a halo row `J < 3` is zero at the left end (the padding) and otherwise row
    `512(c-1) + 509 + J = 512c + J - 3` of the whole; a block row `J ≥ 3` is row `512c + (J - 3)`. -/
theorem hx_eq_pad (X : SX.Idx → EReal) (c : Fin 16) (h : SH.Idx → EReal)
    (hh : 0 < c.val → h = hal (block SB SX 1 16 (lft c) X)) (b : Fin 4) (ch : Fin 256) (J : ℕ) (hJ : J < 515) :
    hxAt (block SB SX 1 16 c X) h (decide (c.val = 0)) b ch J = padAt X b ch (c.val * 512 + J) := by
  unfold hxAt padAt
  by_cases h3 : J < 3
  · rw [dif_pos h3]
    by_cases hc : c.val = 0
    · rw [dif_neg (by omega)]
      simp only [hc, decide_true, if_true]
    · have hpos : 0 < c.val := Nat.pos_of_ne_zero hc
      have hl := lft_val c hpos
      rw [dif_pos (by omega)]
      simp only [hc, decide_false, Bool.false_eq_true, if_false]
      rw [hh hpos]
      unfold hal
      rw [block_apply, idx_eq]
      refine congrArg X ?_
      refine congrArg (fun r => ix3 b r ch) ?_
      apply Fin.ext
      show (lft c).val * 512 + (509 + J) = c.val * 512 + J - 3
      omega
  · rw [dif_neg h3, dif_pos (by omega), dif_pos (by omega), block_apply, idx_eq]
    refine congrArg X ?_
    refine congrArg (fun r => ix3 b r ch) ?_
    apply Fin.ext
    show c.val * 512 + (J - 3) = c.val * 512 + J - 3
    omega

/-- A device's function of its block, the taps and its left neighbour's last rows is its block of the whole
    function: the padded row `512c + j + t` is the halo row `j + t` when `j + t < 3` (zero at the left end) and the
    block's row `j + t - 3` otherwise. -/
theorem Kout_block (X : SX.Idx → EReal) (K : SK.Idx → EReal) (c : Fin 16) (h : SH.Idx → EReal)
    (hh : 0 < c.val → h = hal (block SB SX 1 16 (lft c) X)) :
    Kout (block SB SX 1 16 c X) K h (decide (c.val = 0)) = block SB SX 1 16 c (Gref X K) := by
  funext i
  obtain ⟨b, j, ch, rfl⟩ : ∃ b j ch, i = ix3 b j ch := ⟨_, _, _, eq_ix3 i⟩
  rw [block_apply, idx_eq]
  unfold Kout Gref
  have e : ∀ t : Fin 4, hxAt (block SB SX 1 16 c X) h (decide (c.val = 0)) b ch (j.val + t.val)
      = padAt X b ch (c.val * 512 + j.val + t.val) := by
    intro t
    rw [hx_eq_pad X c h hh b ch (j.val + t.val) (by omega), Nat.add_assoc]
  show act (taps (fun t => hxAt (block SB SX 1 16 c X) h (decide (c.val = 0)) b ch (j.val + t.val)) (fun t => K (ix2 t ch)))
    = act (taps (fun t => padAt X b ch (c.val * 512 + j.val + t.val)) (fun t => K (ix2 t ch)))
  rw [funext e]

end Cert.GConv

end
-- ==== Proof.RefValue.lean ====
/-
  The reference's run, read as the whole-array function: its result array ends holding `Gref` of its two
  argument arrays, which end unchanged.
-/
import proofs.«900793_g7700000000000794_dist_gconv1d_seqshard_i_b4_s512_c256_v7x_i16_f32_1_alg».proof.Defs
import proofs.«900793_g7700000000000794_dist_gconv1d_seqshard_i_b4_s512_c256_v7x_i16_f32_1_alg».proof.Proof.Gen.ReferenceIdeal
import proofs.«900793_g7700000000000794_dist_gconv1d_seqshard_i_b4_s512_c256_v7x_i16_f32_1_alg».proof.Proof.Gen.ReferenceIdeal.Run
import proofs.«900793_g7700000000000794_dist_gconv1d_seqshard_i_b4_s512_c256_v7x_i16_f32_1_alg».proof.Proof.Gen.ReferenceIdeal.Read
import proofs.«900793_g7700000000000794_dist_gconv1d_seqshard_i_b4_s512_c256_v7x_i16_f32_1_alg».proof.Proof.ConvSpec
import Idealize.ShloMosaic.Lib.IdealHost

noncomputable section

namespace Cert.ReferenceIdeal.RefValue

open Idealize.ShloMosaic Idealize.ShloMosaic.TcCoe Idealize.SL.Sem Idealize.ShloMosaic.ValueIdx
open Cert.ReferenceIdeal Cert.ReferenceIdeal.Gen

/-- The three rows put in front are zero. -/
theorem zeros_read (i : S4x3x256.Idx) : Read.val_main_v0 (F := Ideal) i = (0 : EReal) := by
  rw [Read.val_main_v0_apply, Read.val_main_cst_apply]
  exact Ideal.ofBits_zero_f32

/-- The joined array at row `J`: zero on the three rows in front, the argument's row `J - 3` from there on. -/
theorem pad_read (X : S4x8192x256.Idx → EReal) (j : S4x8195x256.Idx) :
    Read.val_main_v1 (F := Ideal) X j = Cert.GConv.padAt X (j 0) (j 2) (j 1).val := by
  have hj : (j 1).val < 8195 := (j 1).isLt
  unfold Read.val_main_v1 Cert.GConv.padAt
  by_cases h : 3 ≤ (j 1).val ∧ (j 1).val - 3 < 8192
  · rw [dif_pos h]
    exact concatenate_pair_apply_right (t := S4x8195x256) (s₁ := S4x3x256) (s₂ := S4x8192x256) 1 _ X _ j rfl rfl
      (ix3 (j 0) ⟨(j 1).val - 3, h.2⟩ (j 2))
      (fun b => match b with
        | ⟨0, _⟩ => fun _ => rfl
        | ⟨1, _⟩ => fun hb => absurd rfl hb
        | ⟨2, _⟩ => fun _ => rfl)
      (by show (j 1).val - 3 + 3 = (j 1).val; omega)
  · rw [dif_neg h]
    have hlt : (j 1).val < 3 := by omega
    rw [concatenate_pair_apply_left (t := S4x8195x256) (s₁ := S4x3x256) (s₂ := S4x8192x256) 1 _ X _ j rfl
      (ix3 (j 0) ⟨(j 1).val, hlt⟩ (j 2))
      (fun b => match b with
        | ⟨0, _⟩ => rfl
        | ⟨1, _⟩ => rfl
        | ⟨2, _⟩ => rfl)]
    exact zeros_read _

/-- The slice from row `t` on, read at row `R`, is the padded row `R + t` (one lemma per tap). -/
theorem slice0_read (X : S4x8192x256.Idx → EReal) (i : S4x8192x256.Idx) :
    Read.val_main_v3 (F := Ideal) X i = Cert.GConv.padAt X (i 0) (i 2) ((i 1).val + (0 : Fin 4).val) := by
  rw [Read.val_main_v3_apply, pad_read]; rfl

theorem slice1_read (X : S4x8192x256.Idx → EReal) (i : S4x8192x256.Idx) :
    Read.val_main_v10 (F := Ideal) X i = Cert.GConv.padAt X (i 0) (i 2) ((i 1).val + (1 : Fin 4).val) := by
  rw [Read.val_main_v10_apply, pad_read]
  show Cert.GConv.padAt X (i 0) (i 2) (1 + (i 1).val) = Cert.GConv.padAt X (i 0) (i 2) ((i 1).val + 1)
  rw [Nat.add_comm]

theorem slice2_read (X : S4x8192x256.Idx → EReal) (i : S4x8192x256.Idx) :
    Read.val_main_v17 (F := Ideal) X i = Cert.GConv.padAt X (i 0) (i 2) ((i 1).val + (2 : Fin 4).val) := by
  rw [Read.val_main_v17_apply, pad_read]
  show Cert.GConv.padAt X (i 0) (i 2) (2 + (i 1).val) = Cert.GConv.padAt X (i 0) (i 2) ((i 1).val + 2)
  rw [Nat.add_comm]

theorem slice3_read (X : S4x8192x256.Idx → EReal) (i : S4x8192x256.Idx) :
    Read.val_main_v24 (F := Ideal) X i = Cert.GConv.padAt X (i 0) (i 2) ((i 1).val + (3 : Fin 4).val) := by
  rw [Read.val_main_v24_apply, pad_read]
  show Cert.GConv.padAt X (i 0) (i 2) (3 + (i 1).val) = Cert.GConv.padAt X (i 0) (i 2) ((i 1).val + 3)
  rw [Nat.add_comm]

/-- Row `t` of the taps, cut out, flattened and spread over batch and sequence, read at `(b, R, ch)` is the tap
    `K t ch` (one lemma per tap). -/
theorem tap0_read (K : S4x256.Idx → EReal) (i : S4x8192x256.Idx) :
    Read.val_main_v7 (F := Ideal) K i = K (ix2 (0 : Fin 4) (i 2)) := by
  rw [Read.val_main_v7_apply, Read.val_main_v6_apply, Read.val_main_v5_apply, Read.val_main_v4_apply]
  congr 1
  funext a
  match a with
  | ⟨0, _⟩ => rfl
  | ⟨1, _⟩ => exact Fin.ext (Nat.mod_eq_of_lt (i 2).isLt)

theorem tap1_read (K : S4x256.Idx → EReal) (i : S4x8192x256.Idx) :
    Read.val_main_v14 (F := Ideal) K i = K (ix2 (1 : Fin 4) (i 2)) := by
  rw [Read.val_main_v14_apply, Read.val_main_v13_apply, Read.val_main_v12_apply, Read.val_main_v11_apply]
  congr 1
  funext a
  match a with
  | ⟨0, _⟩ => rfl
  | ⟨1, _⟩ => exact Fin.ext (Nat.mod_eq_of_lt (i 2).isLt)

theorem tap2_read (K : S4x256.Idx → EReal) (i : S4x8192x256.Idx) :
    Read.val_main_v21 (F := Ideal) K i = K (ix2 (2 : Fin 4) (i 2)) := by
  rw [Read.val_main_v21_apply, Read.val_main_v20_apply, Read.val_main_v19_apply, Read.val_main_v18_apply]
  congr 1
  funext a
  match a with
  | ⟨0, _⟩ => rfl
  | ⟨1, _⟩ => exact Fin.ext (Nat.mod_eq_of_lt (i 2).isLt)

theorem tap3_read (K : S4x256.Idx → EReal) (i : S4x8192x256.Idx) :
    Read.val_main_v28 (F := Ideal) K i = K (ix2 (3 : Fin 4) (i 2)) := by
  rw [Read.val_main_v28_apply, Read.val_main_v27_apply, Read.val_main_v26_apply, Read.val_main_v25_apply]
  congr 1
  funext a
  match a with
  | ⟨0, _⟩ => rfl
  | ⟨1, _⟩ => exact Fin.ext (Nat.mod_eq_of_lt (i 2).isLt)

/-- The running sum from zero, left to right, is the four taps over the padded rows `R … R + 3`. -/
theorem sum_read (X : S4x8192x256.Idx → EReal) (K : S4x256.Idx → EReal) (i : S4x8192x256.Idx) :
    Read.val_main_v30 (F := Ideal) X K i
      = Cert.GConv.taps (fun t => Cert.GConv.padAt X (i 0) (i 2) ((i 1).val + t.val)) (fun t => K (ix2 t (i 2))) := by
  rw [Read.val_main_v30_apply, Read.val_main_v29_apply, Read.val_main_v23_apply, Read.val_main_v22_apply,
    Read.val_main_v16_apply, Read.val_main_v15_apply, Read.val_main_v9_apply, Read.val_main_v8_apply,
    Read.val_main_v2_apply, Read.val_main_cst_0_apply,
    slice0_read, slice1_read, slice2_read, slice3_read, tap0_read, tap1_read, tap2_read, tap3_read]
  simp only [Ideal.addf_def, Ideal.mulf_def, Ideal.ofBits_def, Ideal.ofBits_zero_f32, zero_add]
  rfl

/-- The reference's last stage is the whole-array function: the quotient `s / (1 + e^(-s))` of the four-tap sum
    `s` is the activation of `s`. -/
theorem ref_eq_G (X : S4x8192x256.Idx → EReal) (K : S4x256.Idx → EReal) :
    Read.val_main_v35 (F := Ideal) X K = Cert.GConv.Gref X K := by
  funext i
  rw [Read.val_main_v35_apply, Read.val_main_v34_apply, Read.val_main_v33_apply, Read.val_main_cst_1_apply,
    Read.val_main_v32_apply, Read.val_main_v31_apply, sum_read]
  simp only [Ideal.hostDivf_def, Ideal.addf_def, Ideal.hostUnary_exp_def, Ideal.hostNegf_def, Ideal.negf_def,
    Ideal.ofBits_def, Ideal.ofBits_one_f32]
  exact (Cert.GConv.act_eq_div _).symm

/-- The reference's composed term is the whole-array function: the padded slices are `padAt`, the running sum
    from zero is the four taps, and the closing quotient is the activation. -/
theorem run_G (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r =>
      r.2.mem (((0 : Dev nD).tc : Thread nD τ).loc main_v35)
          = Cert.GConv.Gref (m (((0 : Dev nD).tc : Thread nD τ).loc main_arg0)) (m (((0 : Dev nD).tc : Thread nD τ).loc main_arg1))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)) :=
  (θ_run _ _ _).mono
    (fun _ h => ⟨(h 0).1.trans ((Read.val_main_v35_eq m 0).trans (ref_eq_G _ _)), (h 0).2.1, (h 0).2.2⟩)
    (Cert.ReferenceIdeal.Value.run (F := Ideal) m ρ)

end Cert.ReferenceIdeal.RefValue

end
-- ==== Proof.KernelIdeal.Pieces.lean ====
/-
  What one device's body leaves in its result block, as a function of the three things it loads: its block of the
  input, the taps and the three halo rows. The block is filled by three stores through rectangles that tile it —
  rows [3, 131), rows [131, 512) and rows [0, 3) — so its contents are the canonical overlay of the three payloads,
  whatever the block held before. At the left end of the line the head rows ignore the halo: the select takes zeros.
-/
import proofs.«900793_g7700000000000794_dist_gconv1d_seqshard_i_b4_s512_c256_v7x_i16_f32_1_alg».proof.Proof.Gen.KernelIdeal.Skeleton
import Idealize.ShloMosaic.Lib.Pipeline.FrameBody
import Idealize.ShloMosaic.Lib.Pipeline.Value
import Idealize.ShloMosaic.Lib.ValueIdx

noncomputable section

namespace Cert.KernelIdeal.KVal

open Idealize.ShloMosaic Idealize.ShloMosaic.ValueIdx
open Cert.KernelIdeal Cert.KernelIdeal.Gen Cert.KernelIdeal.Facts₀

variable {F : FTy → Type} [FloatOps F]

/-- The three rectangles of the result block the body stores through. -/
abbrev rHead : Rect S4x512x256 := Rect.unit (s := S4x512x256) ![0, 0, 0] S4x3x256.size Facts₀.inb_S4x512x256_S4x3x256_0_0_0
abbrev rA : Rect S4x512x256 := Rect.unit (s := S4x512x256) ![0, 3, 0] S4x128x256.size Facts₀.inb_S4x512x256_S4x128x256_0_3_0
abbrev rB : Rect S4x512x256 := Rect.unit (s := S4x512x256) ![0, 131, 0] S4x381x256.size Facts₀.inb_S4x512x256_S4x381x256_0_131_0

/-- The body's three stores, the last one first: the head rows, rows [131, 512), rows [3, 131). -/
def pieces (w : BitVec 32) (x : Vec F S4x512x256 .f32) (k : Vec F S4x256 .f32) (h : Vec F S4x3x256 .f32) :
    List (View.Piece (Elt F) S4x512x256 .f32) :=
  [⟨rHead, k0_pay1 w (k0_pay2 x) (k0_pay3 k) h⟩, ⟨rB, k0_pay7 (k0_pay2 x) (k0_pay3 k)⟩, ⟨rA, k0_pay6 (k0_pay4 x k) (k0_pay5 x k)⟩]

/-- Every row lies in one of the three rectangles: below 3, from 3 to 130, from 131 on. -/
theorem pieces_cover (w : BitVec 32) (x : Vec F S4x512x256 .f32) (k : Vec F S4x256 .f32) (h : Vec F S4x3x256 .f32) :
    ∀ y : S4x512x256.Idx, ∃ p ∈ pieces w x k h, y ∈ p.1.set := by
  intro y
  have h0 : (y 0).val < 4 := (y 0).isLt
  have h1 : (y 1).val < 512 := (y 1).isLt
  have h2 : (y 2).val < 256 := (y 2).isLt
  by_cases hA : (y 1).val < 3
  · refine ⟨⟨rHead, k0_pay1 w (k0_pay2 x) (k0_pay3 k) h⟩, .head _, ?_⟩
    show y ∈ rHead.set
    refine Rect.mem_set_unit.mpr fun a => ?_
    match a with
    | ⟨0, _⟩ => exact ⟨Nat.zero_le _, by show (y 0).val < 0 + 4; omega⟩
    | ⟨1, _⟩ => exact ⟨Nat.zero_le _, by show (y 1).val < 0 + 3; omega⟩
    | ⟨2, _⟩ => exact ⟨Nat.zero_le _, by show (y 2).val < 0 + 256; omega⟩
  · by_cases hB : (y 1).val < 131
    · refine ⟨⟨rA, k0_pay6 (k0_pay4 x k) (k0_pay5 x k)⟩, .tail _ (.tail _ (.head _)), ?_⟩
      show y ∈ rA.set
      refine Rect.mem_set_unit.mpr fun a => ?_
      match a with
      | ⟨0, _⟩ => exact ⟨Nat.zero_le _, by show (y 0).val < 0 + 4; omega⟩
      | ⟨1, _⟩ => exact ⟨by show 3 ≤ (y 1).val; omega, by show (y 1).val < 3 + 128; omega⟩
      | ⟨2, _⟩ => exact ⟨Nat.zero_le _, by show (y 2).val < 0 + 256; omega⟩
    · refine ⟨⟨rB, k0_pay7 (k0_pay2 x) (k0_pay3 k)⟩, .tail _ (.head _), ?_⟩
      show y ∈ rB.set
      refine Rect.mem_set_unit.mpr fun a => ?_
      match a with
      | ⟨0, _⟩ => exact ⟨Nat.zero_le _, by show (y 0).val < 0 + 4; omega⟩
      | ⟨1, _⟩ => exact ⟨by show 131 ≤ (y 1).val; omega, by show (y 1).val < 131 + 381; omega⟩
      | ⟨2, _⟩ => exact ⟨Nat.zero_le _, by show (y 2).val < 0 + 256; omega⟩

/-- The block's contents after the body. -/
def outOf (w : BitVec 32) (x : Vec F S4x512x256 .f32) (k : Vec F S4x256 .f32) (h : Vec F S4x3x256 .f32) : S4x512x256.Idx → Elt F .f32 :=
  View.canon (pieces w x k h)

/-- At the left end of the line the head rows do not depend on what the halo buffer holds: the select takes zeros. -/
theorem head_indep (w : BitVec 32) (hw : Scalar.cmpi .eq w 0#32 = 1#1) (x : FVec F S4x512x256 .bf16) (k : FVec F S4x256 .bf16)
    (h h' : Vec F S4x3x256 .f32) : k0_pay1 w x k h = k0_pay1 w x k h' := by
  unfold k0_pay1
  generalize Scalar.cmpi .eq w 0#32 = c at hw ⊢
  subst hw
  rfl

end Cert.KernelIdeal.KVal

end
-- ==== Proof.KernelIdeal.Line.lean ====
/-
  The protocol of the line of sixteen devices, and what every device holds when its body starts.

  Device `c` computes its 512 rows of a causal four-tap convolution; rows 0–2 need the last three rows of the
  device to its left. So every device but the last sends its last three rows to the halo buffer of the device to
  its right, and every device but the first waits for them. A device may only write its neighbour's halo buffer
  once that neighbour is inside the kernel: every device but the first signals one unit on the barrier semaphore
  of the device to its left, handing over its halo buffer, and every device but the last waits for that unit
  before it sends. The last wait of a sending device is for its own rows to have been read.

  Three semaphores a device, each a cell of one round with at most one duty:
    barrier of `c` (`c < 15`): one unit, paid by `c + 1`'s signal; it carries `c + 1`'s halo buffer at any contents
      and that `c + 1`'s receive cell is at round 0;
    receive of `c` (`0 < c`): the halo's credit, paid by `c - 1`'s copy; it carries `c`'s halo buffer holding
      `c - 1`'s last three rows;
    send of `c` (`c < 15`): the same credit, paid by `c`'s own copy; it carries back the three rows of `c`'s
      input block the copy read.
  Levels: barrier cells 1, receive cells 2, everything else 0 — a device waits on its barrier owing only a
  receive credit, and on its receive and send cells owing nothing.
-/
import proofs.«900793_g7700000000000794_dist_gconv1d_seqshard_i_b4_s512_c256_v7x_i16_f32_1_alg».proof.Proof.Gen.KernelIdeal
import proofs.«900793_g7700000000000794_dist_gconv1d_seqshard_i_b4_s512_c256_v7x_i16_f32_1_alg».proof.Proof.Gen.KernelIdeal.Skeleton
import proofs.«900793_g7700000000000794_dist_gconv1d_seqshard_i_b4_s512_c256_v7x_i16_f32_1_alg».proof.Proof.Gen.KernelIdeal.Launch
import proofs.«900793_g7700000000000794_dist_gconv1d_seqshard_i_b4_s512_c256_v7x_i16_f32_1_alg».proof.Proof.Gen.KernelIdeal.Points
import proofs.«900793_g7700000000000794_dist_gconv1d_seqshard_i_b4_s512_c256_v7x_i16_f32_1_alg».proof.Proof.KernelIdeal.Pieces
import Idealize.ShloMosaic.Lib.Pipeline.Launch
import Idealize.ShloMosaic.Lib.Pipeline.Kit
import Idealize.ShloMosaic.Lib.Tactic

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the line's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## Left and right on the line (wrapping at the ends, where the wrapped neighbour is never addressed) -/

def rgt (c : Dev nD) : Dev nD := ⟨(c.val + 1) % 16, Nat.mod_lt _ (by decide)⟩
def lft (c : Dev nD) : Dev nD := ⟨(c.val + 15) % 16, Nat.mod_lt _ (by decide)⟩

theorem lft_rgt (c : Dev nD) : lft (rgt c) = c := by revert c; decide
theorem rgt_lft (c : Dev nD) : rgt (lft c) = c := by revert c; decide
theorem rgt_pos_iff (c : Dev nD) : 0 < (rgt c).val ↔ c.val < 15 := by revert c; decide
theorem lft_lt_iff (c : Dev nD) : (lft c).val < 15 ↔ 0 < c.val := by revert c; decide

def line : Dev nD ≃ Dev nD := ⟨rgt, lft, lft_rgt, rgt_lft⟩

/-- The kernel's `device_id` chains: the signal names the device to the left, the copy the device to the right. -/
theorem dev1_eq (c : Dev nD) (h : k0_cond1 c = 1#1) : (⟨k0_dev1 c, Facts₀.k0_dev1_lt c h⟩ : Dev nD) = lft c := Fin.ext (k0_dev1_eq c)
theorem dev2_eq (c : Dev nD) (h : k0_cond2 c = 1#1) : (⟨k0_dev2 c, Facts₀.k0_dev2_lt c h⟩ : Dev nD) = rgt c := Fin.ext (k0_dev2_eq c)

/-- The device's position as the word the body branches on. -/
abbrev pos (c : Dev nD) : BitVec 32 := Scalar.remsi (Scalar.divsi (Dev.word c) 1#32) 16#32

theorem cond1_iff (c : Dev nD) : k0_cond1 c = 1#1 ↔ 0 < c.val := by revert c; decide
theorem cond2_iff (c : Dev nD) : k0_cond2 c = 1#1 ↔ c.val < 15 := by revert c; decide
theorem cond3_iff (c : Dev nD) : Scalar.cmpi .ne (Scalar.extui (Scalar.cmpi .sgt (pos c) 0#32)) 0#32 = 1#1 ↔ 0 < c.val := by revert c; decide
theorem cond4_iff (c : Dev nD) : Scalar.cmpi .ne (Scalar.extui (Scalar.cmpi .slt (pos c) 15#32)) 0#32 = 1#1 ↔ c.val < 15 := by revert c; decide
theorem first_iff (c : Dev nD) : Scalar.cmpi .eq (pos c) 0#32 = 1#1 ↔ c.val = 0 := by revert c; decide

/-! ## The memrefs and cells -/

abbrev xM : Memref sig .tc .vmem S4x512x256 .f32 := Memref.whole cc0_stg0_0
abbrev kM : Memref sig .tc .vmem S4x256 .f32 := Memref.whole cc0_stg1_0
abbrev oM : Memref sig .tc .vmem S4x512x256 .f32 := Memref.whole cc0_stg2_0
abbrev hM : Memref sig .tc .vmem S4x3x256 .f32 := Memref.whole cc0_scratch0
/-- The last three rows of the input block: the copy's source. -/
abbrev tailR : Rect S4x512x256 := Rect.unit (s := S4x512x256) ![0, 509, 0] S4x3x256.size Facts₀.inb_S4x512x256_S4x3x256_0_509_0
abbrev tM : Memref sig .tc .vmem S4x3x256 .f32 := xM.slice tailR (fun _ => rfl)

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them, and all three as this proof does. -/
abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The halo buffer's credit: what one copy of three rows pays each of its two cells. -/
abbrev N : ℕ := (hM : Memref sig .tc .vmem S4x3x256 .f32).view.dmaCredit
theorem N_pos : 0 < N := View.dmaCredit_pos _ (by decide)

/-! ## Contents -/

/-- Device `c`'s input block and taps as staged. -/
def xstg (c : Dev nD) : (cc0_stg0_0 : Ref sig .tc).ty.Contents (Elt F) :=
  (win0_0.blk (0 : Fin 1)).view.read (Elt F) ((s₀ m ρ).mem ((c : Thread nD τ).loc main_arg0))
def kstg (c : Dev nD) : (cc0_stg1_0 : Ref sig .tc).ty.Contents (Elt F) :=
  (win0_1.blk (0 : Fin 1)).view.read (Elt F) ((s₀ m ρ).mem ((c : Thread nD τ).loc main_arg1))

/-- What lands in device `c`'s halo buffer: the last three rows of the block to its left. -/
def landed (c : Dev nD) : (cc0_scratch0 : Ref sig .tc).ty.Contents (Elt F) :=
  (tM : Memref sig .tc .vmem S4x3x256 .f32).view.read (Elt F) (xstg m ρ (lft c))

omit [FloatOps F] in
theorem landed_eq (c : Dev nD) (fd : (cc0_scratch0 : Ref sig .tc).ty.Contents (Elt F)) :
    (hM : Memref sig .tc .vmem S4x3x256 .f32).view.write (Elt F) fd ((tM : Memref sig .tc .vmem S4x3x256 .f32).view.read (Elt F) (xstg m ρ (lft c))) Finset.univ
      = landed m ρ c := by
  show (View.whole cc0_scratch0).write (Elt F) fd _ Finset.univ = _
  exact View.write_whole_univ _ _ _

/-- Device `c`'s result block after its body. -/
def outAt (c : Dev nD) : (cc0_stg2_0 : Ref sig .tc).ty.Contents (Elt F) :=
  KVal.outOf (pos c) (xstg m ρ c) (kstg m ρ c) (landed m ρ c)

def scrPts (c : Dev nD) (f : (cc0_scratch0 : Ref sig .tc).ty.Contents (Elt F)) : sProp 𝕄 :=
  ((c : Thread nD τ).loc cc0_scratch0) ↦{fullShare} f
/-- The three rows the copy reads, held apart from the rest of the input block. -/
def tailPts (c : Dev nD) : sProp 𝕄 :=
  (tM : Memref sig .tc .vmem S4x3x256 .f32).view.loc (c : Thread nD τ) ↦[(tM : Memref sig .tc .vmem S4x3x256 .f32).view.set]{fullShare} xstg m ρ c

omit [FloatOps F] in
instance scrPts_storable (c : Dev nD) (f) : BI.Storable (upEmb : UEmb _ 𝕄) (scrPts (F := F) c f) := by unfold scrPts; infer_instance
omit [FloatOps F] in
instance tailPts_storable (c : Dev nD) : BI.Storable (upEmb : UEmb _ 𝕄) (tailPts (F := F) m ρ c) := by unfold tailPts; infer_instance

/-! ## The schedule -/

def barPay (c : Dev nD) : sProp 𝕄 := iprop((∃ f, scrPts (rgt c) f) ∗ reached ER (recvCell (rgt c)) 0)
def recvPay (c : Dev nD) : sProp 𝕄 := scrPts c (landed m ρ c)
def sendPay (c : Dev nD) : sProp 𝕄 := tailPts m ρ c

/-- Which cells have their one duty: barrier and send cells of every device but the last, receive cells of every
    device but the first. -/
abbrev Active (g : GSem nD τ sig) : Prop :=
  g.1.2 = .tc ∧ ((g.2 = .reg barS ∧ g.1.1.val < 15) ∨ (g.2 = .dma sendS.sem ∧ g.1.1.val < 15) ∨ (g.2 = .dma recvS.sem ∧ 0 < g.1.1.val))

def lineRd : Rounds.Schedule (GSem nD τ sig) Unit 𝕄 where
  duties g r := if r = 0 ∧ Active g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance lineRd_payload_storable (g : GSem nD τ sig) (r : ℕ) (d : Unit) :
    BI.Storable (upEmb : UEmb _ 𝕄) ((lineRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar (h : c.val < 15) : (lineRd (F := F) m ρ).duties (barCell c) 0 = {()} := by
  dsimp only [lineRd]; exact if_pos ⟨rfl, rfl, .inl ⟨rfl, h⟩⟩
omit [FloatOps F] in
theorem duties_send (h : c.val < 15) : (lineRd (F := F) m ρ).duties (sendCell c) 0 = {()} := by
  dsimp only [lineRd]; exact if_pos ⟨rfl, rfl, .inr (.inl ⟨rfl, h⟩)⟩
omit [FloatOps F] in
theorem duties_recv (h : 0 < c.val) : (lineRd (F := F) m ρ).duties (recvCell c) 0 = {()} := by
  dsimp only [lineRd]; exact if_pos ⟨rfl, rfl, .inr (.inr ⟨rfl, h⟩)⟩
omit [FloatOps F] in
theorem duties_later (g : GSem nD τ sig) : ∀ r, 1 ≤ r → (lineRd (F := F) m ρ).duties g r = ∅ :=
  fun r hr => by dsimp only [lineRd]; rw [if_neg fun h => by omega]
omit [FloatOps F] in
/-- The last device's send cell and the first device's receive cell have no duty in any round. -/
theorem duties_send_last (h : ¬ c.val < 15) : ∀ r, 0 ≤ r → (lineRd (F := F) m ρ).duties (sendCell c) r = ∅ :=
  fun r _ => by
    dsimp only [lineRd]
    refine if_neg fun hh => ?_
    rcases hh.2.2 with h' | h' | h'
    · exact send_ne_bar h'.1
    · exact h h'.2
    · exact send_ne_recv h'.1
omit [FloatOps F] in
theorem duties_recv_first (h : ¬ 0 < c.val) : ∀ r, 0 ≤ r → (lineRd (F := F) m ρ).duties (recvCell c) r = ∅ :=
  fun r _ => by
    dsimp only [lineRd]
    refine if_neg fun hh => ?_
    rcases hh.2.2 with h' | h' | h'
    · exact recv_ne_bar h'.1
    · exact recv_ne_send h'.1
    · exact h h'.2

omit [FloatOps F] in
theorem amount_bar (d : Unit) : (lineRd (F := F) m ρ).amount (barCell c) 0 d = 1 := by dsimp only [lineRd]; exact if_pos rfl
omit [FloatOps F] in
theorem amount_send (d : Unit) : (lineRd (F := F) m ρ).amount (sendCell c) 0 d = N := by dsimp only [lineRd]; exact if_neg send_ne_bar
omit [FloatOps F] in
theorem amount_recv (d : Unit) : (lineRd (F := F) m ρ).amount (recvCell c) 0 d = N := by dsimp only [lineRd]; exact if_neg recv_ne_bar

omit [FloatOps F] in
theorem expect_bar (h : c.val < 15) : (lineRd (F := F) m ρ).expect (barCell c) 0 = 1 := by
  unfold Schedule.expect Schedule.amountOf; rw [duties_bar m ρ c h, Finset.sum_singleton, amount_bar]
omit [FloatOps F] in
theorem expect_send (h : c.val < 15) : (lineRd (F := F) m ρ).expect (sendCell c) 0 = N := by
  unfold Schedule.expect Schedule.amountOf; rw [duties_send m ρ c h, Finset.sum_singleton, amount_send]
omit [FloatOps F] in
theorem expect_recv (h : 0 < c.val) : (lineRd (F := F) m ρ).expect (recvCell c) 0 = N := by
  unfold Schedule.expect Schedule.amountOf; rw [duties_recv m ρ c h, Finset.sum_singleton, amount_recv]

omit [FloatOps F] in
theorem payload_bar (d : Unit) : (lineRd (F := F) m ρ).payload (barCell c) 0 d = barPay c := by dsimp only [lineRd]; rw [if_pos rfl]
omit [FloatOps F] in
theorem payload_send (d : Unit) : (lineRd (F := F) m ρ).payload (sendCell c) 0 d = sendPay m ρ c := by
  dsimp only [lineRd]; rw [if_neg send_ne_bar, if_neg send_ne_recv, if_pos rfl]
omit [FloatOps F] in
theorem payload_recv (d : Unit) : (lineRd (F := F) m ρ).payload (recvCell c) 0 d = recvPay m ρ c := by
  dsimp only [lineRd]; rw [if_neg recv_ne_bar, if_pos rfl]

omit [FloatOps F] in
theorem rest_bar (h : c.val < 15) : bigSep ((lineRd (F := F) m ρ).duties (barCell c) 0 \ ∅) (fun d => (lineRd (F := F) m ρ).payload (barCell c) 0 d) = barPay c := by
  rw [Finset.sdiff_empty, duties_bar m ρ c h, bigSep_singleton, payload_bar]
omit [FloatOps F] in
theorem rest_send (h : c.val < 15) : bigSep ((lineRd (F := F) m ρ).duties (sendCell c) 0 \ ∅) (fun d => (lineRd (F := F) m ρ).payload (sendCell c) 0 d) = sendPay m ρ c := by
  rw [Finset.sdiff_empty, duties_send m ρ c h, bigSep_singleton, payload_send]
omit [FloatOps F] in
theorem rest_recv (h : 0 < c.val) : bigSep ((lineRd (F := F) m ρ).duties (recvCell c) 0 \ ∅) (fun d => (lineRd (F := F) m ρ).payload (recvCell c) 0 d) = recvPay m ρ c := by
  rw [Finset.sdiff_empty, duties_recv m ρ c h, bigSep_singleton, payload_recv]

end Sched

/-! ## What each device owes at launch; the levels -/

/-- Device `c` owes the receive cell to its right the halo's credit (unless it is the last) and the barrier cell to
    its left one unit (unless it is the first); the signal comes first and peels the last summand. -/
def O₁ (c : Dev nD) : CellTallies nD τ sig Unit := if c.val < 15 then tallyAt (recvCell (rgt c)) () N else 0
def O₀ (c : Dev nD) : CellTallies nD τ sig Unit := O₁ c + (if 0 < c.val then tallyAt (barCell (lft c)) () 1 else 0)

def L (g : GSem nD τ sig) : Finset Unit := if g.1.2 = .tc then {()} else ∅
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) : g = recvCell (rgt c) := by
  unfold O₁ at h
  split at h
  · rw [tallyAt_apply] at h
    by_contra hn
    rw [if_neg (fun h' => hn h'.1)] at h
    exact Nat.lt_irrefl 0 h
  · exact absurd h (Nat.lt_irrefl 0)

theorem O₀_pos {c : Dev nD} {g : GSem nD τ sig} {u : Unit} (h : 0 < O₀ c g u) : g = recvCell (rgt c) ∨ g = barCell (lft c) := by
  unfold O₀ at h
  rw [Pi.add_apply, Finsupp.add_apply] at h
  rcases Nat.add_pos_iff_pos_or_pos.mp h with h1 | h2
  · exact .inl (O₁_pos h1)
  · right
    split at h2
    · rw [tallyAt_apply] at h2
      by_contra hn
      rw [if_neg (fun h' => hn h'.1)] at h2
      exact Nat.lt_irrefl 0 h2
    · exact absurd h2 (Nat.lt_irrefl 0)

omit [FloatOps F] in
/-- A staging wait (level 0) is below everything a device can owe (barrier cells at 1, receive cells at 2). -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes the receive credit to its right only: a receive cell, above barrier cells. -/
theorem mayWait_bar (c : Dev nD) :
    (levAts L lv : sProp 𝕄) ⊢ MayWait (c : Thread nD τ) (.reg barS) () (tallyAt (recvCell (rgt c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (rgt c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (rgt c) ∧ u = ()
      · rw [h.1]; dsimp only [lv]; rw [if_neg recv_ne_bar, if_pos rfl]; decide
      · rw [if_neg h] at hg; exact absurd hg (Nat.lt_irrefl 0))

/-! ## Cutting the copy's source out of the input block, and joining it back -/

omit [FloatOps F] in
theorem x_cut (c : Dev nD) :
    ((((c : Thread nD τ).loc cc0_stg0_0) ↦{fullShare} xstg m ρ c : sProp 𝕄))
      ⊣⊢ iprop(tailPts m ρ c ∗ (((c : Thread nD τ).loc cc0_stg0_0) ↦[Finset.univ \ (tM : Memref sig .tc .vmem S4x3x256 .f32).view.set]{fullShare} xstg m ρ c)) :=
  BI.Region.is_split_subset (Finset.subset_univ _)

end Cert.KernelIdeal.Line

end
-- ==== Proof.KernelIdeal.Data.lean ====
/-
  What a device's body starts from and what it leaves, and the pipeline's proof data over them.

  Every device starts with the same shape of ghost state: the invariants of its own three cells and of the two
  neighbouring cells it pays (the barrier cell to its left, the receive cell to its right), its position at round 0
  of its own cells, that round 0 of the cells it pays is reached, the tokens of the duties it pays, the credit dealt
  to its barrier and receive cells at launch, and its halo buffer at some contents. The devices at the two ends hold
  tokens of duties the schedule does not have and credit of amount zero; they never use them.
  After its body a device holds its halo buffer at some contents and its two own DMA semaphores at zero, closed.
-/
import proofs.«900793_g7700000000000794_dist_gconv1d_seqshard_i_b4_s512_c256_v7x_i16_f32_1_alg».proof.Proof.KernelIdeal.Line

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants device `c`'s body opens, at the names `K` the launch allocated them at. -/
def invs (K : Dev nD × Fin 3 → ℕ) (c : Dev nD) : sProp 𝕄 :=
  iprop(cellInv ER (lineRd m ρ) (K (c, 0)) (barCell c) ∗ cellInv ER (lineRd m ρ) (K (c, 1)) (sendCell c) ∗ cellInv ER (lineRd m ρ) (K (c, 2)) (recvCell c)
    ∗ cellInv ER (lineRd m ρ) (K (lft c, 0)) (barCell (lft c)) ∗ cellInv ER (lineRd m ρ) (K (rgt c, 2)) (recvCell (rgt c)))

instance invs_persistent (K : Dev nD × Fin 3 → ℕ) (c : Dev nD) : BI.Persistent (invs m ρ K c) := by unfold invs; infer_instance

def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (lft c)) 0 ∗ reached ER (recvCell (rgt c)) 0 ∗ reached ER (sendCell c) 0 ∗ reached ER (recvCell c) 0
    ∗ dutyTok ER (barCell (lft c)) 0 () ∗ dutyTok ER (recvCell (rgt c)) 0 () ∗ dutyTok ER (sendCell c) 0 ())

/-- The credit dealt at launch: one unit on the barrier cell of every device but the last, the halo's credit on the
    receive cell of every device but the first. -/
def cB (c : Dev nD) : ℕ := if c.val < 15 then 1 else 0
def cR (c : Dev nD) : ℕ := if 0 < c.val then N else 0

def start (c : Dev nD) : sProp 𝕄 :=
  iprop((∃ K, ghost m ρ K c) ∗ cred (tallyAt (barCell c) () (cB c)) ∗ cred (tallyAt (recvCell c) () (cR c)) ∗ levAts L lv)

def Φ₀ (c : Dev nD) : sProp 𝕄 := iprop(start m ρ c ∗ ∃ f, scrPts c f)
def Φ₁ (c : Dev nD) : sProp 𝕄 := iprop((∃ f, scrPts (F := F) c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => kstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition as the pipeline states it, and its postcondition. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (kstg m ρ c) ∗ stg c cc0_stg2_0 (outAt m ρ c))

end Cert.KernelIdeal.Line

end
-- ==== Proof.KernelIdeal.Body.lean ====
/-
  One device's body, stepped from the context the launch deals it to what the pipeline asks after the point.

  The three places on the line run the same text with different guards taken: a device inside the line does
  everything; the left end signals nobody and waits for no rows; the right end waits for no unit and sends nothing.
  The signal hands the device's halo buffer to the barrier cell on its left; the wait on its own barrier cell brings
  the halo buffer on its right; the copy pays the send cell with the three source rows, cut out of the input block
  for the time the copy is in flight, and the receive cell on the right with that halo buffer rewritten; the wait on
  the receive cell brings the device's own halo buffer holding its left neighbour's rows, and the wait on the send
  cell brings the source rows back, which are joined to the rest of the input block.
-/
import proofs.«900793_g7700000000000794_dist_gconv1d_seqshard_i_b4_s512_c256_v7x_i16_f32_1_alg».proof.Proof.KernelIdeal.Data

noncomputable section

namespace Cert.KernelIdeal.Line

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! the schedule's tables, entry on the left, payloads spelt as the assertions themselves -/
omit [FloatOps F] in
theorem t_duties_bar (c : Dev nD) (h : c.val < 15) : (lineRd (F := F) m ρ).duties (barCell c) 0 = {()} := duties_bar m ρ c h
omit [FloatOps F] in
theorem t_duties_barL (c : Dev nD) (h : 0 < c.val) : (lineRd (F := F) m ρ).duties (barCell (lft c)) 0 = {()} := duties_bar m ρ (lft c) ((lft_lt_iff c).mpr h)
omit [FloatOps F] in
theorem t_duties_send (c : Dev nD) (h : c.val < 15) : (lineRd (F := F) m ρ).duties (sendCell c) 0 = {()} := duties_send m ρ c h
omit [FloatOps F] in
theorem t_duties_recv (c : Dev nD) (h : 0 < c.val) : (lineRd (F := F) m ρ).duties (recvCell c) 0 = {()} := duties_recv m ρ c h
omit [FloatOps F] in
theorem t_duties_recvR (c : Dev nD) (h : c.val < 15) : (lineRd (F := F) m ρ).duties (recvCell (rgt c)) 0 = {()} := duties_recv m ρ (rgt c) ((rgt_pos_iff c).mpr h)
omit [FloatOps F] in
theorem t_payload_bar (c : Dev nD) (d : Unit) : (lineRd (F := F) m ρ).payload (barCell c) 0 d
    = iprop((∃ f : (cc0_scratch0 : Ref sig .tc).ty.Contents (Elt F),
        ((hM : Memref sig .tc .vmem S4x3x256 .f32).view.loc ((rgt c : Dev nD) : Thread nD τ) ↦[(hM : Memref sig .tc .vmem S4x3x256 .f32).view.set]{fullShare} f))
        ∗ reached ER (recvCell (rgt c)) 0) := by
  rw [payload_bar]; unfold barPay scrPts; rw [View.set_whole]
omit [FloatOps F] in
theorem t_payload_barL (c : Dev nD) (d : Unit) : (lineRd (F := F) m ρ).payload (barCell (lft c)) 0 d
    = iprop((∃ f : (cc0_scratch0 : Ref sig .tc).ty.Contents (Elt F),
        ((hM : Memref sig .tc .vmem S4x3x256 .f32).view.loc (c : Thread nD τ) ↦[(hM : Memref sig .tc .vmem S4x3x256 .f32).view.set]{fullShare} f))
        ∗ reached ER (recvCell c) 0) := by
  rw [t_payload_bar, rgt_lft]
omit [FloatOps F] in
theorem t_payload_send (c : Dev nD) (d : Unit) : (lineRd (F := F) m ρ).payload (sendCell c) 0 d
    = ((tM : Memref sig .tc .vmem S4x3x256 .f32).view.loc (c : Thread nD τ) ↦[(tM : Memref sig .tc .vmem S4x3x256 .f32).view.set]{fullShare} xstg m ρ c) := payload_send m ρ c d
omit [FloatOps F] in
theorem t_payload_recv (c : Dev nD) (d : Unit) : (lineRd (F := F) m ρ).payload (recvCell c) 0 d
    = ((hM : Memref sig .tc .vmem S4x3x256 .f32).view.loc (c : Thread nD τ) ↦[(hM : Memref sig .tc .vmem S4x3x256 .f32).view.set]{fullShare} landed m ρ c) := by
  rw [payload_recv]; unfold recvPay scrPts; rw [View.set_whole]
omit [FloatOps F] in
theorem t_payload_recvR (c : Dev nD) (d : Unit) : (lineRd (F := F) m ρ).payload (recvCell (rgt c)) 0 d
    = ((hM : Memref sig .tc .vmem S4x3x256 .f32).view.loc ((rgt c : Dev nD) : Thread nD τ) ↦[(hM : Memref sig .tc .vmem S4x3x256 .f32).view.set]{fullShare} landed m ρ (rgt c)) :=
  t_payload_recv m ρ (rgt c) d
omit [FloatOps F] in
/-- What the copy from `c` writes over any contents of the halo buffer to its right is what that buffer's receive cell promises. -/
theorem landed_rgt (c : Dev nD) (fd : (cc0_scratch0 : Ref sig .tc).ty.Contents (Elt F)) :
    (hM : Memref sig .tc .vmem S4x3x256 .f32).view.write (Elt F) fd ((tM : Memref sig .tc .vmem S4x3x256 .f32).view.read (Elt F) (xstg m ρ c)) Finset.univ
      = landed m ρ (rgt c) := by
  have := landed_eq m ρ (rgt c) fd
  rw [lft_rgt] at this
  exact this

attribute [local sl_rounds] t_duties_bar t_duties_barL t_duties_send t_duties_recv t_duties_recvR amount_bar amount_send amount_recv
  t_payload_bar t_payload_send t_payload_recv expect_bar expect_send expect_recv landed_rgt rgt_lft lft_rgt
attribute [local sl_rounds high] t_payload_barL t_payload_recvR

omit [FloatOps F] in
/-- The input block's staging buffer as the copy's three source rows and the rest. -/
theorem x_cut_view (c : Dev nD) :
    (((xM : Memref sig .tc .vmem S4x512x256 .f32).view.loc (c : Thread nD τ) ↦[(xM : Memref sig .tc .vmem S4x512x256 .f32).view.set]{fullShare} xstg m ρ c : sProp 𝕄))
      ⊣⊢ iprop(((tM : Memref sig .tc .vmem S4x3x256 .f32).view.loc (c : Thread nD τ) ↦[(tM : Memref sig .tc .vmem S4x3x256 .f32).view.set]{fullShare} xstg m ρ c)
          ∗ ((xM : Memref sig .tc .vmem S4x512x256 .f32).view.loc (c : Thread nD τ) ↦[(xM : Memref sig .tc .vmem S4x512x256 .f32).view.set \ (tM : Memref sig .tc .vmem S4x3x256 .f32).view.set]{fullShare} xstg m ρ c)) :=
  BI.Region.is_split_subset (View.set_slice_subset _ _)

/-- The copy of the last three rows to the halo buffer on the right, by the send rule at the line's cells: the source
    rows go to the send cell's duty, the halo buffer rewritten with them to the receive cell's duty on the right. -/
theorem wp_send_line (K : Dev nD × Fin 3 → ℕ) (c n : Dev nD) (hn : n = rgt c) (h15 : c.val < 15)
    {hsc : (hM : Memref sig (Dev.tc n : Thread nD τ).2.kind .vmem S4x3x256 .f32).view.ref.isScScratch = false}
    {hsrc : (tM : Memref sig .tc .vmem S4x3x256 .f32).view.WordExact} {hdst : (hM : Memref sig .tc .vmem S4x3x256 .f32).view.WordExact}
    {hsem : DmaTarget.Typed .vmem (.dma recvS.sem) (.remote (Dev.tc n : Thread nD τ) (hM : Memref sig .tc .vmem S4x3x256 .f32) (.dma sendS.sem) hsc)}
    {α : Type} {Q : α → sProp 𝕄} {k : PUnit → Prog (TpuEff nD τ sig (Elt F) Λ₀ .tc) α}
    (fn : (cc0_scratch0 : Ref sig .tc).ty.Contents (Elt F)) (W : Waits sig Unit) :
    iprop(cellInv ER (lineRd m ρ) (K (c, 1)) (sendCell c) ∗ cellInv ER (lineRd m ρ) (K (rgt c, 2)) (recvCell (rgt c))
        ∗ ((tM : Memref sig .tc .vmem S4x3x256 .f32).view.loc (c : Thread nD τ) ↦[(tM : Memref sig .tc .vmem S4x3x256 .f32).view.set]{fullShare} xstg m ρ c)
        ∗ ((hM : Memref sig .tc .vmem S4x3x256 .f32).view.loc ((rgt c : Dev nD) : Thread nD τ) ↦[(hM : Memref sig .tc .vmem S4x3x256 .f32).view.set]{fullShare} fn)
        ∗ owes (c : Thread nD τ) (tallyAt (recvCell (rgt c)) () N) W
        ∗ dutyTok ER (sendCell c) 0 () ∗ reached ER (sendCell c) 0
        ∗ dutyTok ER (recvCell (rgt c)) 0 () ∗ reached ER (recvCell (rgt c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma tM (.remote (Dev.tc n : Thread nD τ) hM (.dma sendS.sem) hsc) (.dma recvS.sem) hsrc hdst hsem) k) Q) := by
  subst hn
  exact Rounds.wp_send_pointsTo 𝒱₀ ER (lineRd m ρ) (c : Thread nD τ) none (c' := ((rgt c : Dev nD) : Thread nD τ))
    (src := (tM : Memref sig .tc .vmem S4x3x256 .f32)) (dst := (hM : Memref sig .tc .vmem S4x3x256 .f32)) (q := fullShare) (fs := xstg m ρ c)
    (κ₁ := K (c, 1)) (κ₂ := K (rgt c, 2))
    (r₁ := 0) (r₂ := 0) (d₁ := ()) (d₂ := ()) (fd := fn)
    (by rw [duties_send m ρ c h15]; exact Finset.mem_singleton_self _)
    (by rw [duties_recv m ρ (rgt c) ((rgt_pos_iff c).mpr h15)]; exact Finset.mem_singleton_self _)
    () () N rfl (amount_send m ρ c ()) (amount_recv m ρ (rgt c) ()) 0 (by rw [zero_add]) (W := W)
    (by rw [t_payload_send])
    (by rw [t_payload_recvR, landed_rgt])

omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl
omit [FloatOps F] in
/-- A load of a whole staging buffer reads its contents. -/
theorem read_x (f : (cc0_stg0_0 : Ref sig .tc).ty.Contents (Elt F)) :
    (xM : Memref sig .tc .vmem S4x512x256 .f32).view.readAt (Elt F) (Rect.unit (s := S4x512x256) ![0, 0, 0] S4x512x256.size Facts₀.inb_S4x512x256_S4x512x256_0_0_0).toLoadRect f = f :=
  Memref.readAt_unit_zero (Elt F) cc0_stg0_0 hz3 _ f
omit [FloatOps F] in
theorem read_k (f : (cc0_stg1_0 : Ref sig .tc).ty.Contents (Elt F)) :
    (kM : Memref sig .tc .vmem S4x256 .f32).view.readAt (Elt F) (Rect.unit (s := S4x256) ![0, 0] S4x256.size Facts₀.inb_S4x256_S4x256_0_0).toLoadRect f = f :=
  Memref.readAt_unit_zero (Elt F) cc0_stg1_0 hz2 _ f
omit [FloatOps F] in
theorem read_h (f : (cc0_scratch0 : Ref sig .tc).ty.Contents (Elt F)) :
    (hM : Memref sig .tc .vmem S4x3x256 .f32).view.readAt (Elt F) (Rect.unit (s := S4x3x256) ![0, 0, 0] S4x3x256.size Facts₀.inb_S4x3x256_S4x3x256_0_0_0).toLoadRect f = f :=
  Memref.readAt_unit_zero (Elt F) cc0_scratch0 hz3 _ f

/-- The three stores cover the result block: whatever it held, it ends at the canonical overlay of their payloads. -/
theorem out_writes (w : BitVec 32) (x : (cc0_stg0_0 : Ref sig .tc).ty.Contents (Elt F)) (k : (cc0_stg1_0 : Ref sig .tc).ty.Contents (Elt F))
    (h : (cc0_scratch0 : Ref sig .tc).ty.Contents (Elt F)) (go : (cc0_stg2_0 : Ref sig .tc).ty.Contents (Elt F)) :
    (oM : Memref sig .tc .vmem S4x512x256 .f32).view.writes (Elt F) go (KVal.pieces w x k h) = KVal.outOf w x k h := by
  have e := View.read_writes_eq_canon (Val := Elt F) (oM : Memref sig .tc .vmem S4x512x256 .f32).view go (KVal.pieces w x k h) (KVal.pieces_cover w x k h)
  simp only [Memref.view_whole, View.read_whole] at e
  exact e

/-- What a device holds after its body, whatever its place on the line. -/
def bodyOut (c : Dev nD) : sProp 𝕄 :=
  iprop((∃ f : (cc0_scratch0 : Ref sig .tc).ty.Contents (Elt F), ((hM : Memref sig .tc .vmem S4x3x256 .f32).view.loc (c : Thread nD τ) ↦[(hM : Memref sig .tc .vmem S4x3x256 .f32).view.set]{fullShare} f))
    ∗ semVal (sendCell c) 0 ∗ semVal (recvCell c) 0 ∗ (∃ W' : Waits sig Unit, owes (c : Thread nD τ) 0 W')
    ∗ ((xM : Memref sig .tc .vmem S4x512x256 .f32).view.loc (c : Thread nD τ) ↦[(xM : Memref sig .tc .vmem S4x512x256 .f32).view.set]{fullShare} xstg m ρ c)
    ∗ ((kM : Memref sig .tc .vmem S4x256 .f32).view.loc (c : Thread nD τ) ↦[(kM : Memref sig .tc .vmem S4x256 .f32).view.set]{fullShare} kstg m ρ c)
    ∗ ((oM : Memref sig .tc .vmem S4x512x256 .f32).view.loc (c : Thread nD τ) ↦[(oM : Memref sig .tc .vmem S4x512x256 .f32).view.set]{fullShare} outAt m ρ c))

omit [FloatOps F] in
/-- The same three loads, through the whole views of the three buffers and the literal extents. -/
theorem read_x' (h) (f : (cc0_stg0_0 : Ref sig .tc).ty.Contents (Elt F)) :
    View.readAt (Elt F) (View.whole (cc0_stg0_0 : Ref sig .tc)) (Rect.unit (s := S4x512x256) ![0, 0, 0] ![4, 512, 256] h).toLoadRect f = f :=
  Memref.readAt_unit_zero (Elt F) cc0_stg0_0 hz3 _ f
omit [FloatOps F] in
theorem read_k' (h) (f : (cc0_stg1_0 : Ref sig .tc).ty.Contents (Elt F)) :
    View.readAt (Elt F) (View.whole (cc0_stg1_0 : Ref sig .tc)) (Rect.unit (s := S4x256) ![0, 0] ![4, 256] h).toLoadRect f = f :=
  Memref.readAt_unit_zero (Elt F) cc0_stg1_0 hz2 _ f
omit [FloatOps F] in
theorem read_h' (h) (f : (cc0_scratch0 : Ref sig .tc).ty.Contents (Elt F)) :
    View.readAt (Elt F) (View.whole (cc0_scratch0 : Ref sig .tc)) (Rect.unit (s := S4x3x256) ![0, 0, 0] ![4, 3, 256] h).toLoadRect f = f :=
  Memref.readAt_unit_zero (Elt F) cc0_scratch0 hz3 _ f

set_option maxHeartbeats 1600000 in
/-- A device inside the line: it signals left, stores rows [3, 131), waits for the unit from its right and sends its
    last rows there, stores rows [131, 512), waits for the rows from its left, stores the head rows, and waits for
    its own rows to have been read. -/
theorem body_mid (K : Dev nD × Fin 3 → ℕ) (c : Dev nD) (h0 : 0 < c.val) (h15 : c.val < 15)
    (W : Waits sig Unit) (fh : (cc0_scratch0 : Ref sig .tc).ty.Contents (Elt F)) (go : (cc0_stg2_0 : Ref sig .tc).ty.Contents (Elt F)) :
    iprop(invs m ρ K c
        ∗ atPos ER (barCell c) 0 ∅ 0 ∗ atPos ER (sendCell c) 0 ∅ 0 ∗ atPos ER (recvCell c) 0 ∅ 0
        ∗ reached ER (barCell (lft c)) 0 ∗ reached ER (recvCell (rgt c)) 0 ∗ reached ER (sendCell c) 0 ∗ reached ER (recvCell c) 0
        ∗ dutyTok ER (barCell (lft c)) 0 () ∗ dutyTok ER (recvCell (rgt c)) 0 () ∗ dutyTok ER (sendCell c) 0 ()
        ∗ cred (tallyAt (barCell c) () 1) ∗ cred (tallyAt (recvCell c) () N) ∗ levAts L lv
        ∗ ((hM : Memref sig .tc .vmem S4x3x256 .f32).view.loc (c : Thread nD τ) ↦[(hM : Memref sig .tc .vmem S4x3x256 .f32).view.set]{fullShare} fh)
        ∗ owes (c : Thread nD τ) (tallyAt (recvCell (rgt c)) () N + tallyAt (barCell (lft c)) () 1) W
        ∗ ((xM : Memref sig .tc .vmem S4x512x256 .f32).view.loc (c : Thread nD τ) ↦[(xM : Memref sig .tc .vmem S4x512x256 .f32).view.set]{fullShare} xstg m ρ c)
        ∗ ((kM : Memref sig .tc .vmem S4x256 .f32).view.loc (c : Thread nD τ) ↦[(kM : Memref sig .tc .vmem S4x256 .f32).view.set]{fullShare} kstg m ρ c)
        ∗ ((oM : Memref sig .tc .vmem S4x512x256 .f32).view.loc (c : Thread nD τ) ↦[(oM : Memref sig .tc .vmem S4x512x256 .f32).view.set]{fullShare} go))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2)
          (fun _ => bodyOut m ρ c) := by
  have hc1 : k0_cond1 c = 1#1 := (cond1_iff c).mpr h0
  have hc2 : k0_cond2 c = 1#1 := (cond2_iff c).mpr h15
  have hc3 := (cond3_iff c).mpr h0
  have hc4 := (cond4_iff c).mpr h15
  have hd1 := dev1_eq c hc1
  have hd2 := dev2_eq c hc2
  have hmw := mayWait_bar (F := F) c
  unfold invs
  iintro ⟨⟨#HIbar, #HIsnd, #HIrcv, #HIbarL, #HIrcvR⟩, HatB, HatS, HatV, #HrBL, #HrVR, #HrS, #HrV, HtBL, HtVR, HtS, HcB, HcV, #Hlev, Hscr, HO, Hx, Hk, Hout⟩
  sl_unfold [cc0_body]
  -- the signal to the left, the loads, the first store: up to the guarded wait and copy
  set_option sl_exec.stopBefore "k0_cond2" in sl_exec
  -- the copy's source rows are held apart from the rest of the input block while the copy is in flight
  ihave Hx2 := (x_cut_view m ρ c).1 $$ Hx
  icases Hx2 with ⟨Hxt, Hxr⟩
  -- the wait for the unit from the right: the halo buffer there comes with it
  sl_exec
  -- the copy to the right
  iapply (wp_send_line m ρ K c (rgt c) rfl h15 HatB_pay1_v _) $$ [Hxt HatB_pay1 HO HtS HtVR]
  · isplitr; · iexact HIsnd
    isplitr; · iexact HIrcvR
    isplitl [Hxt]; · iexact Hxt
    isplitl [HatB_pay1]; · iexact HatB_pay1
    isplitl [HO]; · iexact HO
    isplitl [HtS]; · iexact HtS
    isplitr; · iexact HrS
    isplitl [HtVR]; · iexact HtVR
    iexact HrVR
  iintro ⟨HcS, HO⟩
  -- the second store, the wait for the rows from the left, the head rows, the wait for the own rows read
  sl_exec
  -- the two own cells close: their counters at zero are the device's again
  imod (Rounds.cell_close ER (lineRd m ρ) (Set.mem_univ (K (c, 1))) (fun h => h) (R := 0 + 1) (duties_later m ρ (sendCell c))) $$ [HatS] with HzS
  · isplitr; · iexact HIsnd
    iexact HatS
  imod (Rounds.cell_close ER (lineRd m ρ) (Set.mem_univ (K (c, 2))) (fun h => h) (R := 0 + 1) (duties_later m ρ (recvCell c))) $$ [HatV] with HzV
  · isplitr; · iexact HIrcv
    iexact HatV
  -- the input block whole again
  ihave Hx := (x_cut_view m ρ c).2 $$ [HatS_pay1 Hxr]
  · isplitl [HatS_pay1] <;> iassumption
  -- the result block: the three stores over what was loaded
  irevert Hout
  sl_unfold_run_names
  simp only [read_x', read_k', read_h']
  iintro Hout
  sl_step
  unfold bodyOut
  isplitl [HatV_pay1]; · iexists _; iexact HatV_pay1
  isplitl [HzS]; · iexact HzS
  isplitl [HzV]; · iexact HzV
  isplitl [HO]; · iexists _; iexact HO
  isplitl [Hx]; · iexact Hx
  isplitl [Hk]; · iexact Hk
  unfold outAt
  rw [← out_writes (pos c) (xstg m ρ c) (kstg m ρ c) (landed m ρ c) go]
  iexact Hout

set_option maxHeartbeats 1600000 in
/-- The device at the left end: it signals nobody and waits for no rows; its head rows take zeros for the halo, whatever
    its halo buffer holds. -/
theorem body_first (K : Dev nD × Fin 3 → ℕ) (c : Dev nD) (h0 : ¬ 0 < c.val) (h15 : c.val < 15)
    (W : Waits sig Unit) (fh : (cc0_scratch0 : Ref sig .tc).ty.Contents (Elt F)) (go : (cc0_stg2_0 : Ref sig .tc).ty.Contents (Elt F)) :
    iprop(invs m ρ K c
        ∗ atPos ER (barCell c) 0 ∅ 0 ∗ atPos ER (sendCell c) 0 ∅ 0 ∗ atPos ER (recvCell c) 0 ∅ 0
        ∗ reached ER (recvCell (rgt c)) 0 ∗ reached ER (sendCell c) 0
        ∗ dutyTok ER (recvCell (rgt c)) 0 () ∗ dutyTok ER (sendCell c) 0 ()
        ∗ cred (tallyAt (barCell c) () 1) ∗ levAts L lv
        ∗ ((hM : Memref sig .tc .vmem S4x3x256 .f32).view.loc (c : Thread nD τ) ↦[(hM : Memref sig .tc .vmem S4x3x256 .f32).view.set]{fullShare} fh)
        ∗ owes (c : Thread nD τ) (tallyAt (recvCell (rgt c)) () N) W
        ∗ ((xM : Memref sig .tc .vmem S4x512x256 .f32).view.loc (c : Thread nD τ) ↦[(xM : Memref sig .tc .vmem S4x512x256 .f32).view.set]{fullShare} xstg m ρ c)
        ∗ ((kM : Memref sig .tc .vmem S4x256 .f32).view.loc (c : Thread nD τ) ↦[(kM : Memref sig .tc .vmem S4x256 .f32).view.set]{fullShare} kstg m ρ c)
        ∗ ((oM : Memref sig .tc .vmem S4x512x256 .f32).view.loc (c : Thread nD τ) ↦[(oM : Memref sig .tc .vmem S4x512x256 .f32).view.set]{fullShare} go))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2)
          (fun _ => bodyOut m ρ c) := by
  have hc1 : ¬ k0_cond1 c = 1#1 := fun h => h0 ((cond1_iff c).mp h)
  have hc2 : k0_cond2 c = 1#1 := (cond2_iff c).mpr h15
  have hc3 : ¬ Scalar.cmpi .ne (Scalar.extui (Scalar.cmpi .sgt (pos c) 0#32)) 0#32 = 1#1 := fun h => h0 ((cond3_iff c).mp h)
  have hc4 := (cond4_iff c).mpr h15
  have hd2 := dev2_eq c hc2
  have hmw := mayWait_bar (F := F) c
  have hfirst : Scalar.cmpi .eq (pos c) 0#32 = 1#1 := (first_iff c).mpr (by omega)
  unfold invs
  iintro ⟨⟨#HIbar, #HIsnd, #HIrcv, #HIbarL, #HIrcvR⟩, HatB, HatS, HatV, #HrVR, #HrS, HtVR, HtS, HcB, #Hlev, Hscr, HO, Hx, Hk, Hout⟩
  sl_unfold [cc0_body]
  set_option sl_exec.stopBefore "k0_cond2" in sl_exec
  ihave Hx2 := (x_cut_view m ρ c).1 $$ Hx
  icases Hx2 with ⟨Hxt, Hxr⟩
  sl_exec
  iapply (wp_send_line m ρ K c (rgt c) rfl h15 HatB_pay1_v _) $$ [Hxt HatB_pay1 HO HtS HtVR]
  · isplitr; · iexact HIsnd
    isplitr; · iexact HIrcvR
    isplitl [Hxt]; · iexact Hxt
    isplitl [HatB_pay1]; · iexact HatB_pay1
    isplitl [HO]; · iexact HO
    isplitl [HtS]; · iexact HtS
    isplitr; · iexact HrS
    isplitl [HtVR]; · iexact HtVR
    iexact HrVR
  iintro ⟨HcS, HO⟩
  sl_exec
  imod (Rounds.cell_close ER (lineRd m ρ) (Set.mem_univ (K (c, 1))) (fun h => h) (R := 0 + 1) (duties_later m ρ (sendCell c))) $$ [HatS] with HzS
  · isplitr; · iexact HIsnd
    iexact HatS
  imod (Rounds.cell_close ER (lineRd m ρ) (Set.mem_univ (K (c, 2))) (fun h => h) (R := 0) (duties_recv_first m ρ c h0)) $$ [HatV] with HzV
  · isplitr; · iexact HIrcv
    iexact HatV
  ihave Hx := (x_cut_view m ρ c).2 $$ [HatS_pay1 Hxr]
  · isplitl [HatS_pay1] <;> iassumption
  irevert Hout
  sl_unfold_run_names
  simp only [read_x', read_k', read_h']
  iintro Hout
  sl_step
  unfold bodyOut
  isplitl [Hscr]; · iexists _; iexact Hscr
  isplitl [HzS]; · iexact HzS
  isplitl [HzV]; · iexact HzV
  isplitl [HO]; · iexists _; iexact HO
  isplitl [Hx]; · iexact Hx
  isplitl [Hk]; · iexact Hk
  unfold outAt
  rw [← out_writes (pos c) (xstg m ρ c) (kstg m ρ c) (landed m ρ c) go]
  have e : KVal.pieces (pos c) (xstg m ρ c) (kstg m ρ c) (landed m ρ c) = KVal.pieces (pos c) (xstg m ρ c) (kstg m ρ c) fh := by
    unfold KVal.pieces
    rw [KVal.head_indep (pos c) hfirst _ _ (landed m ρ c) fh]
  rw [e]
  iexact Hout

set_option maxHeartbeats 1600000 in
/-- The device at the right end: it signals left and waits for the rows from its left; it sends nothing. -/
theorem body_last (K : Dev nD × Fin 3 → ℕ) (c : Dev nD) (h0 : 0 < c.val) (h15 : ¬ c.val < 15)
    (W : Waits sig Unit) (fh : (cc0_scratch0 : Ref sig .tc).ty.Contents (Elt F)) (go : (cc0_stg2_0 : Ref sig .tc).ty.Contents (Elt F)) :
    iprop(invs m ρ K c
        ∗ atPos ER (barCell c) 0 ∅ 0 ∗ atPos ER (sendCell c) 0 ∅ 0 ∗ atPos ER (recvCell c) 0 ∅ 0
        ∗ reached ER (barCell (lft c)) 0 ∗ reached ER (recvCell c) 0
        ∗ dutyTok ER (barCell (lft c)) 0 ()
        ∗ cred (tallyAt (recvCell c) () N) ∗ levAts L lv
        ∗ ((hM : Memref sig .tc .vmem S4x3x256 .f32).view.loc (c : Thread nD τ) ↦[(hM : Memref sig .tc .vmem S4x3x256 .f32).view.set]{fullShare} fh)
        ∗ owes (c : Thread nD τ) (tallyAt (barCell (lft c)) () 1) W
        ∗ ((xM : Memref sig .tc .vmem S4x512x256 .f32).view.loc (c : Thread nD τ) ↦[(xM : Memref sig .tc .vmem S4x512x256 .f32).view.set]{fullShare} xstg m ρ c)
        ∗ ((kM : Memref sig .tc .vmem S4x256 .f32).view.loc (c : Thread nD τ) ↦[(kM : Memref sig .tc .vmem S4x256 .f32).view.set]{fullShare} kstg m ρ c)
        ∗ ((oM : Memref sig .tc .vmem S4x512x256 .f32).view.loc (c : Thread nD τ) ↦[(oM : Memref sig .tc .vmem S4x512x256 .f32).view.set]{fullShare} go))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2)
          (fun _ => bodyOut m ρ c) := by
  have hc1 : k0_cond1 c = 1#1 := (cond1_iff c).mpr h0
  have hc2 : ¬ k0_cond2 c = 1#1 := fun h => h15 ((cond2_iff c).mp h)
  have hc3 := (cond3_iff c).mpr h0
  have hc4 : ¬ Scalar.cmpi .ne (Scalar.extui (Scalar.cmpi .slt (pos c) 15#32)) 0#32 = 1#1 := fun h => h15 ((cond4_iff c).mp h)
  have hd1 := dev1_eq c hc1
  unfold invs
  iintro ⟨⟨#HIbar, #HIsnd, #HIrcv, #HIbarL, #HIrcvR⟩, HatB, HatS, HatV, #HrBL, #HrV, HtBL, HcV, #Hlev, Hscr, HO, Hx, Hk, Hout⟩
  sl_unfold [cc0_body]
  sl_exec
  imod (Rounds.cell_close ER (lineRd m ρ) (Set.mem_univ (K (c, 1))) (fun h => h) (R := 0) (duties_send_last m ρ c h15)) $$ [HatS] with HzS
  · isplitr; · iexact HIsnd
    iexact HatS
  imod (Rounds.cell_close ER (lineRd m ρ) (Set.mem_univ (K (c, 2))) (fun h => h) (R := 0 + 1) (duties_later m ρ (recvCell c))) $$ [HatV] with HzV
  · isplitr; · iexact HIrcv
    iexact HatV
  irevert Hout
  sl_unfold_run_names
  simp only [read_x', read_k', read_h']
  iintro Hout
  sl_step
  unfold bodyOut
  isplitl [HatV_pay1]; · iexists _; iexact HatV_pay1
  isplitl [HzS]; · iexact HzS
  isplitl [HzV]; · iexact HzV
  isplitl [HO]; · iexists _; iexact HO
  isplitl [Hx]; · iexact Hx
  isplitl [Hk]; · iexact Hk
  unfold outAt
  rw [← out_writes (pos c) (xstg m ρ c) (kstg m ρ c) (landed m ρ c) go]
  iexact Hout

/-! ## The staging buffers through their whole views and as plain buffers -/

omit [FloatOps F] in
theorem pts_x (c : Dev nD) (f : (cc0_stg0_0 : Ref sig .tc).ty.Contents (Elt F)) :
    (((xM : Memref sig .tc .vmem S4x512x256 .f32).view.loc (c : Thread nD τ) ↦[(xM : Memref sig .tc .vmem S4x512x256 .f32).view.set]{fullShare} f : sProp 𝕄))
      = (((c : Thread nD τ).loc cc0_stg0_0) ↦{fullShare} f) := by rw [View.set_whole]
omit [FloatOps F] in
theorem pts_k (c : Dev nD) (f : (cc0_stg1_0 : Ref sig .tc).ty.Contents (Elt F)) :
    (((kM : Memref sig .tc .vmem S4x256 .f32).view.loc (c : Thread nD τ) ↦[(kM : Memref sig .tc .vmem S4x256 .f32).view.set]{fullShare} f : sProp 𝕄))
      = (((c : Thread nD τ).loc cc0_stg1_0) ↦{fullShare} f) := by rw [View.set_whole]
omit [FloatOps F] in
theorem pts_o (c : Dev nD) (f : (cc0_stg2_0 : Ref sig .tc).ty.Contents (Elt F)) :
    (((oM : Memref sig .tc .vmem S4x512x256 .f32).view.loc (c : Thread nD τ) ↦[(oM : Memref sig .tc .vmem S4x512x256 .f32).view.set]{fullShare} f : sProp 𝕄))
      = (((c : Thread nD τ).loc cc0_stg2_0) ↦{fullShare} f) := by rw [View.set_whole]
omit [FloatOps F] in
theorem pts_h (c : Dev nD) (f : (cc0_scratch0 : Ref sig .tc).ty.Contents (Elt F)) :
    (((hM : Memref sig .tc .vmem S4x3x256 .f32).view.loc (c : Thread nD τ) ↦[(hM : Memref sig .tc .vmem S4x3x256 .f32).view.set]{fullShare} f : sProp 𝕄))
      = (((c : Thread nD τ).loc cc0_scratch0) ↦{fullShare} f) := by rw [View.set_whole]

/-- What the body leaves is the pipeline's postcondition. -/
theorem bodyOut_post (c : Dev nD) : bodyOut m ρ c ⊢ bodyPost m ρ c := by
  unfold bodyOut bodyPost Φ₁ scrPts Dat.owesAt Pipeline.owesWithin
  rw [show (dats m ρ 0 c).owed t₀.succ = 0 from rfl]
  iintro ⟨⟨%f, Hs⟩, HzS, HzV, ⟨%W', HO⟩, Hx, Hk, Ho⟩
  ihave Hs := (Entails.of_eq (pts_h c f)) $$ Hs
  ihave Hx := (Entails.of_eq (pts_x c _)) $$ Hx
  ihave Hk := (Entails.of_eq (pts_k c _)) $$ Hk
  ihave Ho := (Entails.of_eq (pts_o c _)) $$ Ho
  isplitl [Hs HzS HzV]
  · isplitl [Hs]; · iexists f; iexact Hs
    isplitl [HzS] <;> iassumption
  isplitl [HO]
  · iexists W'
    isplitr; · ipureintro; exact fun _ _ => Or.inl trivial
    iexact HO
  isplitl [Hx]
  · iexists _; isplitr; · (ipureintro; rfl)
    iexact Hx
  isplitl [Hk]
  · iexists _; isplitr; · (ipureintro; rfl)
    iexact Hk
  iexists _; isplitr; · (ipureintro; rfl)
  iexact Ho

set_option maxRecDepth 4000 in
set_option maxHeartbeats 1600000 in
/-- From what the pipeline hands the body, by the device's place on the line. -/
theorem body_cases (c : Dev nD) :
    bodyPre' m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2)
      (fun _ => bodyOut m ρ c) := by
  unfold bodyPre' Φ₀ start ghost scrPts
  iintro ⟨⟨⟨⟨%K, Hinv, HatB, HatS, HatV, #HrBL, #HrVR, #HrS, #HrV, HtBL, HtVR, HtS⟩, HcB, HcV, #Hlev⟩, ⟨%fh, Hscr⟩⟩, Ho, ⟨%d0, %g0, %hg0, Hx⟩, ⟨%d1, %g1, %hg1, Hk⟩, ⟨%d2, %g2, %hg2, Hout⟩⟩
  have hx : g0 = xstg m ρ c := by rw [hg0]; unfold Dat.before; rw [if_pos (fetch_0 t₀)]; rfl
  have hk : g1 = kstg m ρ c := by rw [hg1]; unfold Dat.before; rw [if_pos (fetch_1 t₀)]; rfl
  subst hx hk
  unfold Dat.owesAt Pipeline.owesWithin
  icases Ho with ⟨%W, %hW, HO⟩
  rw [show (dats m ρ 0 c).owed t₀.castSucc = O₀ c from rfl]
  ihave Hscr := (Entails.of_eq (pts_h c fh).symm) $$ Hscr
  ihave Hx := (Entails.of_eq (pts_x c _).symm) $$ Hx
  ihave Hk := (Entails.of_eq (pts_k c _).symm) $$ Hk
  ihave Hout := (Entails.of_eq (pts_o c g2).symm) $$ Hout
  by_cases h0 : 0 < c.val <;> by_cases h15 : c.val < 15
  · have e1 : cB c = 1 := if_pos h15
    have e2 : cR c = N := if_pos h0
    have e3 : O₀ c = tallyAt (recvCell (rgt c)) () N + tallyAt (barCell (lft c)) () 1 := by unfold O₀ O₁; rw [if_pos h15, if_pos h0]
    rw [e1, e2, e3]
    iapply (body_mid m ρ K c h0 h15 W fh g2)
    isplitl [Hinv]; · iexact Hinv
    isplitl [HatB]; · iexact HatB
    isplitl [HatS]; · iexact HatS
    isplitl [HatV]; · iexact HatV
    isplitr; · iexact HrBL
    isplitr; · iexact HrVR
    isplitr; · iexact HrS
    isplitr; · iexact HrV
    isplitl [HtBL]; · iexact HtBL
    isplitl [HtVR]; · iexact HtVR
    isplitl [HtS]; · iexact HtS
    isplitl [HcB]; · iexact HcB
    isplitl [HcV]; · iexact HcV
    isplitr; · iexact Hlev
    isplitl [Hscr]; · iexact Hscr
    isplitl [HO]; · iexact HO
    isplitl [Hx]; · iexact Hx
    isplitl [Hk]; · iexact Hk
    iexact Hout
  · have e2 : cR c = N := if_pos h0
    have e3 : O₀ c = tallyAt (barCell (lft c)) () 1 := by unfold O₀ O₁; rw [if_neg h15, if_pos h0, zero_add]
    rw [e2, e3]
    iapply (body_last m ρ K c h0 h15 W fh g2)
    isplitl [Hinv]; · iexact Hinv
    isplitl [HatB]; · iexact HatB
    isplitl [HatS]; · iexact HatS
    isplitl [HatV]; · iexact HatV
    isplitr; · iexact HrBL
    isplitr; · iexact HrV
    isplitl [HtBL]; · iexact HtBL
    isplitl [HcV]; · iexact HcV
    isplitr; · iexact Hlev
    isplitl [Hscr]; · iexact Hscr
    isplitl [HO]; · iexact HO
    isplitl [Hx]; · iexact Hx
    isplitl [Hk]; · iexact Hk
    iexact Hout
  · have e1 : cB c = 1 := if_pos h15
    have e3 : O₀ c = tallyAt (recvCell (rgt c)) () N := by unfold O₀ O₁; rw [if_pos h15, if_neg h0, add_zero]
    rw [e1, e3]
    iapply (body_first m ρ K c h0 h15 W fh g2)
    isplitl [Hinv]; · iexact Hinv
    isplitl [HatB]; · iexact HatB
    isplitl [HatS]; · iexact HatS
    isplitl [HatV]; · iexact HatV
    isplitr; · iexact HrVR
    isplitr; · iexact HrS
    isplitl [HtVR]; · iexact HtVR
    isplitl [HtS]; · iexact HtS
    isplitl [HcB]; · iexact HcB
    isplitr; · iexact Hlev
    isplitl [Hscr]; · iexact Hscr
    isplitl [HO]; · iexact HO
    isplitl [Hx]; · iexact Hx
    isplitl [Hk]; · iexact Hk
    iexact Hout
  · exact absurd (by omega : 0 < c.val ∨ c.val < 15) (fun h => h.elim h0 h15)

set_option maxRecDepth 4000 in
set_option maxHeartbeats 1600000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => bodyPost m ρ c)
  exact (body_cases m ρ c).trans (wp_mono _ _ _ (fun _ => bodyOut_post m ρ c))

end Cert.KernelIdeal.Line

end
-- ==== Proof.KernelIdeal.Launch.lean ====
/-
  The launch: from the memory at launch, every weakly fair execution of the sixteen devices terminates, and every
  final state has each device's three arrays at the contents the proof data names.

  The line's cells are funded in a second copy of the rounds algebra beside the pipeline's own: every device's three
  cells get their invariant in one update over all devices (the barrier semaphore is not scoped to the launch, so its
  counter arrives with the unscoped semaphores), and the duty tokens are dealt along the line — the token of a barrier
  cell to the device on its right, the token of a receive cell to the device on its left, the token of a send cell to
  its own device. What a device owes at launch sums, cell by cell, to the credit its neighbour's cell is dealt.
-/
import proofs.«900793_g7700000000000794_dist_gconv1d_seqshard_i_b4_s512_c256_v7x_i16_f32_1_alg».proof.Proof.KernelIdeal.Body

noncomputable section

namespace Cert.KernelIdeal.Line

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def lineCells : Finset (GSem nD τ sig) := Finset.univ.map ⟨kcell, kcell_injective⟩

/-- A device's own cells' duty tokens as minted: one a cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def lineToks : Finset (GSem nD τ sig × ℕ × Unit) := Finset.univ.map ⟨tokOf, tokOf_injective⟩

def u₀ : UU :=
  (initOf (Pipeline.cells cfgs cellOf_inj) (Pipeline.launchToks cfgs cellOf_inj), initOf lineCells lineToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`, and what the global step makes of it. -/
def G (c : Dev nD) : sProp 𝕄 :=
  iprop((bigSep Finset.univ fun k : Fin 3 => roundState ER (lineRd m ρ) (kcell (c, k)) 0)
    ∗ (bigSep Finset.univ fun k : Fin 3 => iprop(atPos ER (kcell (c, k)) 0 ∅ 0 ∗ reached ER (kcell (c, k)) 0)) ∗ toks c)
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem fund_line : BI.own (ER (initOf lineCells lineToks)) ⊢ (|==> bigSep Finset.univ (G m ρ) : sProp 𝕄) := by
  have hX (Φ : GSem nD τ sig → sProp 𝕄) : bigSep lineCells Φ = bigSep Finset.univ fun c : Dev nD => bigSep Finset.univ fun k : Fin 3 => Φ (kcell (c, k)) := by
    unfold lineCells; rw [bigSep_map, bigSep_univ_prod]; rfl
  have hT : bigSep lineToks (fun x => (dutyTok ER x.1 x.2.1 x.2.2 : sProp 𝕄)) = bigSep Finset.univ fun c : Dev nD => toks c := by
    unfold lineToks; rw [bigSep_map, bigSep_univ_prod]
    exact bigSep_congr fun c _ => by unfold toks; rw [bigSep_fin3]; rfl
  iintro HX
  imod (Rounds.fund ER (lineRd m ρ) lineCells lineToks) $$ HX with ⟨Hst, Hr, Hat, Htok⟩
  imodintro
  ihave Hst' := (Entails.of_eq (hX fun g => roundState ER (lineRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (lineRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (lineRd m ρ) (kcell (c, k)) 0)
      ⊢ (|={Set.univ}=> bigSep Finset.univ fun k => iprop(∃ κ : ℕ, cellInv ER (lineRd m ρ) κ (kcell (c, k))) : sProp 𝕄) from by
        rw [← bigSep_sep']
        exact (bigSep_mono fun k _ => (Rounds.body_intro ER (lineRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (lineRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

omit [FloatOps F] in
theorem inv_at (K : Dev nD × Fin 3 → ℕ) (ck : Dev nD × Fin 3) :
    (bigSep Finset.univ fun ck : Dev nD × Fin 3 => (cellInv ER (lineRd m ρ) (K ck) (kcell ck) : sProp 𝕄)) ⊢ cellInv ER (lineRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (lft c)) 0 () ∗ dutyTok ER (recvCell (rgt c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

omit [FloatOps F] in
theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBL, HtVR, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (lft c, 0)); iexact HI
    iapply (inv_at m ρ K (rgt c, 2)); iexact HI
  isplitl [HaB]; · iexact HaB
  isplitl [HaS]; · iexact HaS
  isplitl [HaV]; · iexact HaV
  isplitr; · iapply (reached_at (F := F) (lft c, 0)); iexact HR
  isplitr; · iapply (reached_at (F := F) (rgt c, 2)); iexact HR
  isplitr; · iapply (reached_at (F := F) (c, 1)); iexact HR
  isplitr; · iapply (reached_at (F := F) (c, 2)); iexact HR
  isplitl [HtBL]; · iexact HtBL
  isplitl [HtVR]; · iexact HtVR
  iexact HtS

omit [FloatOps F] in
/-- The tokens dealt along the line: a barrier's token one device up, a receive's token one device down. -/
theorem toks_along : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv line.symm (fun c : Dev nD => (dutyTok ER (barCell c) 0 () : sProp 𝕄)),
    bigSep_univ_equiv line (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (lineRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (lineRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (lineRd m ρ) κ (kcell ck) : sProp 𝕄))) $$ HI
  icases HK with ⟨%K, #HI⟩
  ihave Htk := (toks_along (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is the device to `c`'s right (and not the first). -/
theorem owed_bar (d c : Dev nD) : O₀ d (barCell c) () = if d = rgt c then (if 0 < d.val then 1 else 0) else 0 := by
  unfold O₀ O₁
  rw [Pi.add_apply, Finsupp.add_apply]
  have e1 : (if d.val < 15 then tallyAt (recvCell (rgt d)) () N else (0 : CellTallies nD τ sig Unit)) (barCell c) () = 0 := by
    split
    · rw [tallyAt_ne_cell (fun h => recv_ne_bar (congrArg Prod.snd h).symm)]; rfl
    · rfl
  rw [e1, Nat.zero_add]
  by_cases hd : d = rgt c
  · subst hd
    rw [if_pos rfl]
    split
    · rw [lft_rgt, tallyAt_apply, if_pos ⟨rfl, rfl⟩]
    · rfl
  · rw [if_neg hd]
    split
    · rw [tallyAt_apply, if_neg (fun ⟨h1, _⟩ => hd (by rw [← rgt_lft d]; exact congrArg rgt (bar_eq_iff.mp h1).symm))]
    · rfl

omit [FloatOps F] in
/-- What device `d` owes device `c`'s receive cell: the halo's credit if `d` is the device to `c`'s left (and not the last). -/
theorem owed_recv (d c : Dev nD) : O₀ d (recvCell c) () = if d = lft c then (if d.val < 15 then N else 0) else 0 := by
  unfold O₀ O₁
  rw [Pi.add_apply, Finsupp.add_apply]
  have e2 : (if 0 < d.val then tallyAt (barCell (lft d)) () 1 else (0 : CellTallies nD τ sig Unit)) (recvCell c) () = 0 := by
    split
    · rw [tallyAt_ne_cell (fun h => recv_ne_bar (congrArg Prod.snd h))]; rfl
    · rfl
  rw [e2, Nat.add_zero]
  by_cases hd : d = lft c
  · subst hd
    rw [if_pos rfl]
    split
    · rw [rgt_lft, tallyAt_apply, if_pos ⟨rfl, rfl⟩]
    · rfl
  · rw [if_neg hd]
    split
    · rw [tallyAt_apply, if_neg (fun ⟨h1, _⟩ => hd (by rw [← lft_rgt d]; exact congrArg lft (recv_eq_iff.mp h1).symm))]
    · rfl

omit [FloatOps F] in
theorem launch_bar (c : Dev nD) :
    tallyOn (barCell c) (launchCredit (Pipeline.owing O₀) 0 (barCell c)) = (tallyAt (barCell c) () (cB c) : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (rgt c) fun d => if 0 < d.val then 1 else 0, if_pos (Finset.mem_univ _)]
  unfold cB
  by_cases h : c.val < 15
  · rw [if_pos ((rgt_pos_iff c).mpr h), if_pos h]
  · rw [if_neg (fun h' => h ((rgt_pos_iff c).mp h')), if_neg h]

omit [FloatOps F] in
theorem launch_recv (c : Dev nD) :
    tallyOn (recvCell c) (launchCredit (Pipeline.owing O₀) 0 (recvCell c)) = (tallyAt (recvCell c) () (cR c) : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (lft c) fun d => if d.val < 15 then N else 0, if_pos (Finset.mem_univ _)]
  unfold cR
  by_cases h : 0 < c.val
  · rw [if_pos ((lft_lt_iff c).mpr h), if_pos h]
  · rw [if_neg (fun h' => h ((lft_lt_iff c).mp h')), if_neg h]

omit [FloatOps F] in
theorem creds (c : Dev nD) :
    (Pipeline.launchCred O₀ c : sProp 𝕄) ⊢ iprop(cred (tallyAt (barCell c) () (cB c)) ∗ cred (tallyAt (recvCell c) () (cR c))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold scrPts; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hr⟩, HzS, HzV⟩
  isplitr; · iempintro
  isplitl [HzS HzV]
  · isplitl [HzS] <;> iassumption
  iexists f; unfold scrPts; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, from any memory with zero counters: every weakly fair execution of @main
    terminates, and every final state has each device's arrays at the proof data's final contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_line m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Line.run_main' depends on axioms: [propext, Classical.choice, Quot.sound] -/
#guard_msgs in #print axioms run_main

end Cert.KernelIdeal.Line

end
-- ==== Proof.KernelIdeal.Final.lean ====
/-
  The arrays after the run: the two argument arrays of every device unchanged, its result array at the contents its
  body left in the result block — one write-back of the whole block at the one grid point.
-/
import proofs.«900793_g7700000000000794_dist_gconv1d_seqshard_i_b4_s512_c256_v7x_i16_f32_1_alg».proof.Proof.KernelIdeal.Launch

noncomputable section

namespace Cert.KernelIdeal.Line

open Cert.KernelIdeal Cert.KernelIdeal.Gen

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

theorem finalA_x (c : Dev nD) : finalA m ρ c (0 : Fin 3) = m ((c : Thread nD τ).loc main_arg0) :=
  (dats (F := F) m ρ 0 c).arrAt_in (0 : Fin 3) rfl _
theorem finalA_k (c : Dev nD) : finalA m ρ c (1 : Fin 3) = m ((c : Thread nD τ).loc main_arg1) :=
  (dats (F := F) m ρ 0 c).arrAt_in (1 : Fin 3) rfl _

set_option maxHeartbeats 1600000 in
/-- The result array ends at what the body left in the result block: the one write-back writes the whole block, at
    offset zero on every axis, over the array. -/
theorem finalA_o (c : Dev nD) : finalA m ρ c (2 : Fin 3) = outAt m ρ c := by
  unfold finalA
  show (dats m ρ 0 c).arrAt (2 : Fin 3) (t₀.val + 1) = _
  rw [Dat.arrAt_succ, if_pos (flush0_2 t₀)]
  exact Memref.write_access_unit_zero_univ (Elt F) main_v1 (funext fun a => Nat.zero_mul _) _ _ _

/-- Every weakly fair execution terminates with each device's result array at `outAt` and its arguments unchanged. -/
theorem run_named :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c (2 : Fin 3)).trans (finalA_o m ρ c), (h c (0 : Fin 3)).trans (finalA_x m ρ c), (h c (1 : Fin 3)).trans (finalA_k m ρ c)⟩)
    (run_main m ρ)

end Cert.KernelIdeal.Line

end
-- ==== Proof.KernelValue.lean ====
/-
  What one device's body leaves in its result block, as a function of the three things it loads: its block of the
  input, the taps and the three halo rows. The block is filled by three stores through rectangles that tile it —
  rows [3, 131), rows [131, 512) and rows [0, 3) — so its contents are the canonical overlay of the three payloads.
  At the ideal instance that overlay is `Kout`: rows from 3 on convolve the device's own rows, the first three
  rows convolve the halo followed by the device's first rows, and the device at the left end reads zeros for the
  halo whatever its halo buffer holds.
-/
import proofs.«900793_g7700000000000794_dist_gconv1d_seqshard_i_b4_s512_c256_v7x_i16_f32_1_alg».proof.Proof.Gen.KernelIdeal.Skeleton
import proofs.«900793_g7700000000000794_dist_gconv1d_seqshard_i_b4_s512_c256_v7x_i16_f32_1_alg».proof.Proof.KernelIdeal.Pieces
import proofs.«900793_g7700000000000794_dist_gconv1d_seqshard_i_b4_s512_c256_v7x_i16_f32_1_alg».proof.Proof.ConvSpec
import Idealize.ShloMosaic.Lib.Pipeline.FrameBody
import Idealize.ShloMosaic.Lib.Pipeline.Value
import Idealize.ShloMosaic.Lib.ValueLayout
import Idealize.ShloMosaic.Lib.ValueIdx

noncomputable section

namespace Cert.KernelIdeal.KVal

open Idealize.ShloMosaic Idealize.ShloMosaic.ValueIdx
open Cert.KernelIdeal Cert.KernelIdeal.Gen Cert.KernelIdeal.Facts₀

variable {F : FTy → Type} [FloatOps F]

open Cert.GConv

/-- The logistic of a vector at an index is the logistic of the element. -/
theorem logistic_at {s : Shape} {φ : FTy} (a : FVec Ideal s φ) (i : s.Idx) : logistic a i = Ideal.logistic (a i) := rfl

/-- One tap's row of weights, spread over batch and rows: at `(b, r, ch)` it is the tap's weight for channel `ch`. -/
theorem tap_at {α : Type} {m : Nat} (t : Nat) (k : S4x256.Idx → α) (hs : S4x256.Slices ![t, 0] S1x256)
    (h1 : S1x256.ShapeCasts S256) (h2 : S256.ShapeCasts S1x1x256) (hb : S1x1x256.Broadcasts ⟨3, ![4, m, 256]⟩)
    (ht : t < 4) (b : Fin 4) (r : Fin m) (ch : Fin 256) :
    broadcastTo ⟨3, ![4, m, 256]⟩ (shapeCast S1x1x256 (shapeCast S256 (extractStridedSlice S1x256 ![t, 0] k hs) h1) h2) hb (ix3 b r ch)
      = k (ix2 ⟨t, ht⟩ ch) := by
  refine (broadcastTo_apply _ hb (ix3 b r ch) (ix3 (0 : Fin 1) (0 : Fin 1) ch) fun a => ?_).trans ?_
  · match a with
    | ⟨0, _⟩ => rfl
    | ⟨1, _⟩ => rfl
    | ⟨2, _⟩ => rfl
  refine (shapeCast_apply _ h2 (ix3 (0 : Fin 1) (0 : Fin 1) ch) (ix1 ch) ?_).trans ?_
  · rw [Shape.rowMajor_val_one, Shape.rowMajor_val_three]
    show ch.val = ((0 * 1 + 0) * 256 + ch.val)
    omega
  refine (shapeCast_1a_a_apply _ h1 ch).trans ?_
  exact slice2_axis0_apply t k hs (0 : Fin 1) ch ⟨t, ht⟩ (by show t = t + 0; omega)

/-- From position 3 on, the padded row is the device's own row three back. -/
theorem hxAt_body (x : SB.Idx → EReal) (h : SH.Idx → EReal) (z : Bool) (b : Fin 4) (ch : Fin 256) (J : Nat) (r : Fin 512)
    (hJ : J = r.val + 3) : hxAt x h z b ch J = x (ix3 b r ch) := by
  subst hJ
  unfold hxAt
  rw [dif_neg (show ¬ (r.val + 3 < 3) by omega), dif_pos (show r.val + 3 - 3 < 512 by have := r.isLt; omega)]
  exact congrArg (fun q => x (ix3 b q ch)) (Fin.ext (by show r.val + 3 - 3 = r.val; omega))

/-- Below position 3 at the left end of the line the padded row is zero. -/
theorem hxAt_halo_z (x : SB.Idx → EReal) (h : SH.Idx → EReal) (b : Fin 4) (ch : Fin 256) (J : Nat) (hJ : J < 3) :
    hxAt x h true b ch J = 0 := by
  unfold hxAt
  rw [dif_pos hJ]
  rfl

/-- Below position 3 elsewhere it is the halo's row. -/
theorem hxAt_halo_nz (x : SB.Idx → EReal) (h : SH.Idx → EReal) (b : Fin 4) (ch : Fin 256) (J : Nat) (r : Fin 3) (hJ : J = r.val) :
    hxAt x h false b ch J = h (ix3 b r ch) := by
  subst hJ
  unfold hxAt
  rw [dif_pos r.isLt]
  rfl

/-- The casts of the loaded block and taps to the narrow format and back are the identity on extended reals. -/
theorem pay2_id (x : Vec Ideal S4x512x256 .f32) : k0_pay2 (F := Ideal) x = x := by
  unfold k0_pay2
  rw [shapeCast_self]
  rfl

theorem pay3_id (k : Vec Ideal S4x256 .f32) : k0_pay3 (F := Ideal) k = k := by
  unfold k0_pay3
  rw [shapeCast_self]
  rfl

/-- Rows [3, 131): local row `r` is row `3 + r` of the block, and its four taps read the device's own rows `r … r + 3`. -/
theorem pay6_at (x : Vec Ideal S4x512x256 .f32) (k : Vec Ideal S4x256 .f32) (h : SH.Idx → EReal) (z : Bool)
    (b : Fin 4) (r : Fin 128) (ch : Fin 256) :
    k0_pay6 (F := Ideal) (k0_pay4 x k) (k0_pay5 x k) (ix3 b r ch)
      = Kout x k h z (ix3 b ⟨3 + r.val, by have := r.isLt; omega⟩ ch) := by
  show _ = act (hxAt x h z b ch (3 + r.val + 0) * k (ix2 0 ch) + hxAt x h z b ch (3 + r.val + 1) * k (ix2 1 ch)
    + hxAt x h z b ch (3 + r.val + 2) * k (ix2 2 ch) + hxAt x h z b ch (3 + r.val + 3) * k (ix2 3 ch))
  rw [hxAt_body x h z b ch _ ⟨0 + r.val, by have := r.isLt; omega⟩ (by show 3 + r.val + 0 = 0 + r.val + 3; omega),
    hxAt_body x h z b ch _ ⟨1 + r.val, by have := r.isLt; omega⟩ (by show 3 + r.val + 1 = 1 + r.val + 3; omega),
    hxAt_body x h z b ch _ ⟨2 + r.val, by have := r.isLt; omega⟩ (by show 3 + r.val + 2 = 2 + r.val + 3; omega),
    hxAt_body x h z b ch _ ⟨3 + r.val, by have := r.isLt; omega⟩ (by show 3 + r.val + 3 = 3 + r.val + 3; omega)]
  unfold k0_pay6 k0_pay4 k0_pay5 k0_pay2 k0_pay3
  simp only [extf_apply, mulf_apply, addf_apply, truncf_apply, logistic_at, shapeCast_self,
    tap_at 0 _ _ _ _ _ (by decide), tap_at 1 _ _ _ _ _ (by decide), tap_at 2 _ _ _ _ _ (by decide), tap_at 3 _ _ _ _ _ (by decide),
    slice3_axis1_eq]
  rfl

/-- Rows [131, 512): local row `r` is row `131 + r` of the block, and its four taps read the device's own rows `128 + r … 131 + r`. -/
theorem pay7_at (x2 : FVec Ideal S4x512x256 .bf16) (k3 : FVec Ideal S4x256 .bf16) (h : SH.Idx → EReal) (z : Bool)
    (b : Fin 4) (r : Fin 381) (ch : Fin 256) :
    k0_pay7 (F := Ideal) x2 k3 (ix3 b r ch)
      = Kout x2 k3 h z (ix3 b ⟨131 + r.val, by have := r.isLt; omega⟩ ch) := by
  show _ = act (hxAt x2 h z b ch (131 + r.val + 0) * k3 (ix2 0 ch) + hxAt x2 h z b ch (131 + r.val + 1) * k3 (ix2 1 ch)
    + hxAt x2 h z b ch (131 + r.val + 2) * k3 (ix2 2 ch) + hxAt x2 h z b ch (131 + r.val + 3) * k3 (ix2 3 ch))
  rw [hxAt_body x2 h z b ch _ ⟨128 + r.val, by have := r.isLt; omega⟩ (by show 131 + r.val + 0 = 128 + r.val + 3; omega),
    hxAt_body x2 h z b ch _ ⟨129 + r.val, by have := r.isLt; omega⟩ (by show 131 + r.val + 1 = 129 + r.val + 3; omega),
    hxAt_body x2 h z b ch _ ⟨130 + r.val, by have := r.isLt; omega⟩ (by show 131 + r.val + 2 = 130 + r.val + 3; omega),
    hxAt_body x2 h z b ch _ ⟨131 + r.val, by have := r.isLt; omega⟩ (by show 131 + r.val + 3 = 131 + r.val + 3; omega)]
  unfold k0_pay7
  simp only [extf_apply, mulf_apply, addf_apply, logistic_at,
    tap_at 0 _ _ _ _ _ (by decide), tap_at 1 _ _ _ _ _ (by decide), tap_at 2 _ _ _ _ _ (by decide), tap_at 3 _ _ _ _ _ (by decide),
    slice3_axis1_eq]
  rfl

/-- The six rows the head convolves — the halo, or zeros at the left end of the line, then the device's first three
    rows — are the padded row at positions 0 … 5. -/
theorem cat_at (w : BitVec 32) (x2 : FVec Ideal S4x512x256 .bf16) (h : Vec Ideal S4x3x256 .f32)
    (hs : S4x512x256.Slices ![0, 0, 0] S4x3x256) (hc : Shape.Concatenates [S4x3x256, S4x3x256] S4x6x256 1)
    (hbl : FTy.bits .bf16 < FTy.bits .f32) (b : Fin 4) (q : Nat) (hq : q < 6) (ch : Fin 256) :
    concatenate S4x6x256 1
        [⟨S4x3x256, Scalar.select (Scalar.cmpi .eq w 0#32)
            (broadcast S4x3x256 (Scalar.ofBits .bf16 0x0000#16 : Ideal .bf16) : FVec Ideal S4x3x256 .bf16) (truncf .bf16 h hbl)⟩,
          ⟨S4x3x256, extractStridedSlice S4x3x256 ![0, 0, 0] x2 hs⟩] hc (ix3 b ⟨q, hq⟩ ch)
      = hxAt x2 h (decide (Scalar.cmpi .eq w 0#32 = 1#1)) b ch q := by
  by_cases hlt : q < 3
  · refine (concatenate_pair_apply_left (t := S4x6x256) 1 _ _ hc (ix3 b ⟨q, hq⟩ ch) rfl (ix3 b ⟨q, hlt⟩ ch) fun a => ?_).trans ?_
    · match a with
      | ⟨0, _⟩ => rfl
      | ⟨1, _⟩ => rfl
      | ⟨2, _⟩ => rfl
    by_cases hz : Scalar.cmpi .eq w 0#32 = 1#1
    · rw [decide_eq_true hz, hz, select_one, hxAt_halo_z _ _ _ _ _ hlt]
      show Ideal.ofBits .bf16 0x0000#16 = 0
      simp [Ideal.ofBits, Ideal.ieee]
    · rw [decide_eq_false hz, eq_zero_of_ne_one hz, select_zero, hxAt_halo_nz _ _ _ _ _ ⟨q, hlt⟩ rfl]
      rfl
  · have hq3 : q - 3 < 3 := by omega
    refine (concatenate_pair_apply_right (t := S4x6x256) 1 _ _ hc (ix3 b ⟨q, hq⟩ ch) rfl rfl (ix3 b ⟨q - 3, hq3⟩ ch) (fun a ha => ?_) ?_).trans ?_
    · match a with
      | ⟨0, _⟩ => rfl
      | ⟨1, _⟩ => exact absurd rfl ha
      | ⟨2, _⟩ => rfl
    · show q - 3 + 3 = q
      omega
    rw [hxAt_body x2 h _ b ch q ⟨q - 3, by omega⟩ (by show q = q - 3 + 3; omega)]
    exact slice3_axis1_apply 0 x2 hs b ⟨q - 3, hq3⟩ ch ⟨q - 3, by omega⟩ (by show q - 3 = 0 + (q - 3); omega)

/-- Rows [0, 3): local row `r` is row `r` of the block, and its four taps read the padded row at positions `r … r + 3`. -/
theorem pay1_at (w : BitVec 32) (x2 : FVec Ideal S4x512x256 .bf16) (k3 : FVec Ideal S4x256 .bf16) (h : Vec Ideal S4x3x256 .f32)
    (b : Fin 4) (r : Fin 3) (ch : Fin 256) :
    k0_pay1 (F := Ideal) w x2 k3 h (ix3 b r ch)
      = Kout x2 k3 h (decide (Scalar.cmpi .eq w 0#32 = 1#1)) (ix3 b ⟨0 + r.val, by have := r.isLt; omega⟩ ch) := by
  show _ = act (hxAt x2 h _ b ch (0 + r.val + 0) * k3 (ix2 0 ch) + hxAt x2 h _ b ch (0 + r.val + 1) * k3 (ix2 1 ch)
    + hxAt x2 h _ b ch (0 + r.val + 2) * k3 (ix2 2 ch) + hxAt x2 h _ b ch (0 + r.val + 3) * k3 (ix2 3 ch))
  rw [show 0 + r.val + 0 = 0 + r.val by omega, show 0 + r.val + 1 = 1 + r.val by omega, show 0 + r.val + 2 = 2 + r.val by omega,
    show 0 + r.val + 3 = 3 + r.val by omega]
  unfold k0_pay1
  simp only [extf_apply, mulf_apply, addf_apply, logistic_at,
    tap_at 0 _ _ _ _ _ (by decide), tap_at 1 _ _ _ _ _ (by decide), tap_at 2 _ _ _ _ _ (by decide), tap_at 3 _ _ _ _ _ (by decide),
    slice3_axis1_eq, cat_at]
  rfl

/-- Where a unit-stride rectangle of whole batches and channels starting at row `o` puts its local index. -/
theorem emb_rows (o m : Nat) (inb : ∀ a, (![0, o, 0] : Fin 3 → Nat) a + (![4, m, 256] : Fin 3 → Nat) a ≤ S4x512x256.size a)
    (b : Fin 4) (r : Fin m) (ch : Fin 256) (hr : o + r.val < 512) :
    (Rect.unit (s := S4x512x256) ![0, o, 0] ![4, m, 256] inb).emb (ix3 b r ch) = ix3 b ⟨o + r.val, hr⟩ ch := by
  funext a
  match a with
  | ⟨0, _⟩ => exact Fin.ext (by show 0 + 1 * b.val = b.val; omega)
  | ⟨1, _⟩ => exact Fin.ext (by show o + 1 * r.val = o + r.val; omega)
  | ⟨2, _⟩ => exact Fin.ext (by show 0 + 1 * ch.val = ch.val; omega)

/-- At the ideal instance the block's contents are the per-device function of the specification. -/
theorem outOf_ideal (w : BitVec 32) (x : Vec Ideal S4x512x256 .f32) (k : Vec Ideal S4x256 .f32) (h : Vec Ideal S4x3x256 .f32) :
    outOf (F := Ideal) w x k h = Cert.GConv.Kout x k h (decide (Scalar.cmpi .eq w 0#32 = 1#1)) := by
  funext i
  refine View.canon_apply_of_pieces (Cert.GConv.Kout x k h (decide (Scalar.cmpi .eq w 0#32 = 1#1))) (pieces w x k h) ?_ i
    (pieces_cover w x k h i)
  intro p hp xq
  simp only [pieces, List.mem_cons, List.not_mem_nil, or_false] at hp
  rcases hp with rfl | rfl | rfl
  · obtain ⟨b, r, ch, rfl⟩ : ∃ (b : Fin 4) (r : Fin 3) (ch : Fin 256), xq = ix3 b r ch := ⟨xq 0, xq 1, xq 2, eq_ix3 xq⟩
    refine (pay1_at w (k0_pay2 x) (k0_pay3 k) h b r ch).trans ?_
    rw [pay2_id, pay3_id]
    exact congrArg (Kout x k h _) (emb_rows 0 3 Facts₀.inb_S4x512x256_S4x3x256_0_0_0 b r ch _).symm
  · obtain ⟨b, r, ch, rfl⟩ : ∃ (b : Fin 4) (r : Fin 381) (ch : Fin 256), xq = ix3 b r ch := ⟨xq 0, xq 1, xq 2, eq_ix3 xq⟩
    refine (pay7_at (k0_pay2 x) (k0_pay3 k) h (decide (Scalar.cmpi .eq w 0#32 = 1#1)) b r ch).trans ?_
    rw [pay2_id, pay3_id]
    exact congrArg (Kout x k h _) (emb_rows 131 381 Facts₀.inb_S4x512x256_S4x381x256_0_131_0 b r ch _).symm
  · obtain ⟨b, r, ch, rfl⟩ : ∃ (b : Fin 4) (r : Fin 128) (ch : Fin 256), xq = ix3 b r ch := ⟨xq 0, xq 1, xq 2, eq_ix3 xq⟩
    refine (pay6_at x k h (decide (Scalar.cmpi .eq w 0#32 = 1#1)) b r ch).trans ?_
    exact congrArg (Kout x k h _) (emb_rows 3 128 Facts₀.inb_S4x512x256_S4x128x256_0_3_0 b r ch _).symm

end Cert.KernelIdeal.KVal

end
-- ==== Proof.Join.lean ====
/-
  At the ideal instance a device's result is its block of the whole-array function: its staged block is its block of
  the whole input, its staged taps are the taps, what lands in its halo buffer is the last three rows of the block to
  its left, and the device at the left end is the one whose position word is zero.
-/
import proofs.«900793_g7700000000000794_dist_gconv1d_seqshard_i_b4_s512_c256_v7x_i16_f32_1_alg».proof.Proof.KernelIdeal.Final
import proofs.«900793_g7700000000000794_dist_gconv1d_seqshard_i_b4_s512_c256_v7x_i16_f32_1_alg».proof.Proof.KernelValue

noncomputable section

namespace Cert.KernelIdeal.Join

open Cert.KernelIdeal Cert.KernelIdeal.Gen Cert.KernelIdeal.Line

open Idealize.ShloMosaic Idealize.ShloMosaic.ValueIdx Idealize.ShloMosaic.Layout
open Idealize.ShloMosaic.TcCoe
open Idealize.SL Idealize.SL.Sem

variable (m : (ℓ : Loc nD τ sig) → Buf (Elt Ideal) ℓ) (ρ : Dev nD → PrngReg)

/-- The staged block is the device's input array; the staged taps its taps array. -/
theorem xstg_eq (c : Dev nD) : xstg m ρ c = m ((c : Thread nD τ).loc main_arg0) := by
  unfold xstg
  exact Memref.read_access_unit_zero (Elt Ideal) main_arg0 (funext fun a => Nat.zero_mul _) _ _
theorem kstg_eq (c : Dev nD) : kstg m ρ c = m ((c : Thread nD τ).loc main_arg1) := by
  unfold kstg
  exact Memref.read_access_unit_zero (Elt Ideal) main_arg1 (funext fun a => Nat.zero_mul _) _ _

/-- What lands in the halo buffer is the last three rows of the block to the left. -/
theorem landed_hal (c : Dev nD) : landed m ρ c = Cert.GConv.hal (xstg m ρ (Line.lft c)) := by
  funext y
  obtain ⟨b, j, ch, rfl⟩ : ∃ (b : Fin 4) (j : Fin 3) (ch : Fin 256), y = ix3 b j ch := ⟨y 0, y 1, y 2, eq_ix3 y⟩
  unfold landed Cert.GConv.hal
  show xstg m ρ (Line.lft c) ((tM : Memref sig .tc .vmem S4x3x256 .f32).view.emb (ix3 b j ch)) = _
  refine congrArg (xstg m ρ (Line.lft c)) ?_
  funext a
  match a with
  | ⟨0, _⟩ => exact Fin.ext (by show 0 + 1 * b.val = b.val; omega)
  | ⟨1, _⟩ => exact Fin.ext (by show 509 + 1 * j.val = 509 + j.val; omega)
  | ⟨2, _⟩ => exact Fin.ext (by show 0 + 1 * ch.val = ch.val; omega)

/-- A device's result block is its block of the whole-array function of the reference's arrays. -/
theorem outAt_block (X : Cert.GConv.SX.Idx → EReal) (Kk : Cert.GConv.SK.Idx → EReal)
    (hx : ∀ c : Dev nD, m ((c.tc : Thread nD τ).loc main_arg0) = block ⟨3, ![4, 512, 256]⟩ ⟨3, ![4, 8192, 256]⟩ 1 16 c X)
    (hk : ∀ c : Dev nD, m ((c.tc : Thread nD τ).loc main_arg1) = Kk) (c : Dev nD) :
    outAt m ρ c = block ⟨3, ![4, 512, 256]⟩ ⟨3, ![4, 8192, 256]⟩ 1 16 c (Cert.GConv.Gref X Kk) := by
  unfold outAt
  rw [KVal.outOf_ideal, landed_hal, xstg_eq, kstg_eq, xstg_eq, hx c, hk c, hx (Line.lft c)]
  have hz : decide (Scalar.cmpi .eq (pos c) 0#32 = 1#1) = decide (c.val = 0) := by
    by_cases h : c.val = 0
    · rw [decide_eq_true ((first_iff c).mpr h), decide_eq_true h]
    · rw [decide_eq_false (fun h' => h ((first_iff c).mp h')), decide_eq_false h]
  rw [hz]
  exact Cert.GConv.Kout_block X Kk c _ (fun _ => rfl)

end Cert.KernelIdeal.Join

end
-- ==== Proof.lean ====
/-
  The certificate's claims from the modules of this directory.

  The kernel on sixteen devices and the reference on one compute the same thing over the extended reals: a causal
  four-tap convolution along the sequence axis followed by `a · logistic a`. A device needs the last three rows of the
  block to its left; it gets them by a remote copy that its left neighbour starts only after this device has signalled
  that it is inside the kernel. The run of all sixteen devices (Kernel/Launch.lean at the word level,
  KernelIdeal/Launch.lean at the ideal instance) terminates with every device's arguments unchanged and its result
  block at the canonical overlay of its three stores; at the ideal instance that overlay is the device's block of the
  whole-array function (Join.lean), which is what the reference's run leaves (RefValue.lean). The two sides meet in one
  law: the divisor `1 + e^(-a)` is never zero, so `a · (1 / (1 + e^(-a))) = a / (1 + e^(-a))` on every extended real, and
  a sum started from zero is the sum.
-/
import proofs.«900793_g7700000000000794_dist_gconv1d_seqshard_i_b4_s512_c256_v7x_i16_f32_1_alg».proof.Defs
import proofs.«900793_g7700000000000794_dist_gconv1d_seqshard_i_b4_s512_c256_v7x_i16_f32_1_alg».proof.Proof.Gen.Kernel
import proofs.«900793_g7700000000000794_dist_gconv1d_seqshard_i_b4_s512_c256_v7x_i16_f32_1_alg».proof.Proof.Gen.KernelIdeal
import proofs.«900793_g7700000000000794_dist_gconv1d_seqshard_i_b4_s512_c256_v7x_i16_f32_1_alg».proof.Proof.Gen.ReferenceIdeal
import proofs.«900793_g7700000000000794_dist_gconv1d_seqshard_i_b4_s512_c256_v7x_i16_f32_1_alg».proof.Proof.Gen.Pre_finite_inputs_Kernel
import proofs.«900793_g7700000000000794_dist_gconv1d_seqshard_i_b4_s512_c256_v7x_i16_f32_1_alg».proof.Proof.Gen.Pre_finite_inputs_ReferenceIdeal
import proofs.«900793_g7700000000000794_dist_gconv1d_seqshard_i_b4_s512_c256_v7x_i16_f32_1_alg».proof.Proof.Gen.ReferenceIdeal.Run
import proofs.«900793_g7700000000000794_dist_gconv1d_seqshard_i_b4_s512_c256_v7x_i16_f32_1_alg».proof.Proof.RefValue
import proofs.«900793_g7700000000000794_dist_gconv1d_seqshard_i_b4_s512_c256_v7x_i16_f32_1_alg».proof.Proof.Kernel.Final
import proofs.«900793_g7700000000000794_dist_gconv1d_seqshard_i_b4_s512_c256_v7x_i16_f32_1_alg».proof.Proof.Join
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its run with the result dropped. -/
theorem frame_k : Cert.frame_Kernel := fun m ρ _ =>
  (θ_run (Cert.Kernel.defs (F := Bits)) _ _).mono (fun _ h c => (h c).2) (Cert.Kernel.Line.run_named (F := Bits) m ρ)

/-- The idealized kernel likewise. -/
theorem frame_ki : Cert.frame_KernelIdeal := fun m ρ _ =>
  (θ_run (Cert.KernelIdeal.defs (F := Ideal)) _ _).mono (fun _ h c => (h c).2) (Cert.KernelIdeal.Line.run_named (F := Ideal) m ρ)

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both run; the reference's result is the whole-array function of its arguments, and each device's result is its block
    of that function, since its arguments are its block of the input and the taps. -/
theorem algebraic : Cert.algebraic_KernelIdeal_ReferenceIdeal := by
  intro m ρ m' ρ' _ hagree
  refine ⟨Cert.GConv.Gref (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run (Cert.KernelIdeal.defs (F := Ideal)) _ _).mono (fun r h c => ⟨(h c).1.trans ?_, (h c).2.1, (h c).2.2⟩)
      (Cert.KernelIdeal.Line.run_named (F := Ideal) m ρ)
    exact Cert.KernelIdeal.Join.outAt_block m ρ _ _ (fun c => (hagree c).1) (fun c => (hagree c).2) c
  · exact Cert.ReferenceIdeal.RefValue.run_G m' ρ'

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
